-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x256 : Shape := ⟨2, ![500000, 256]⟩
abbrev S64x256 : Shape := ⟨2, ![64, 256]⟩
abbrev S64 : Shape := ⟨1, ![64]⟩
abbrev S64x64 : Shape := ⟨2, ![64, 64]⟩
abbrev S1x64 : Shape := ⟨2, ![1, 64]⟩
abbrev S1 : Shape := ⟨1, ![1]⟩
abbrev S_ : Shape := ⟨0, ![]⟩

class Facts : Prop where
  bcast_S_S500000x256 : S_.BroadcastsInDim S500000x256 (![] : Fin 0 → Fin S500000x256.rank)
  reducesTo_S500000x256_S_d0_1 : S500000x256.ReducesTo [0, 1] S_
  h_S_ : 0 < S_.numel
  bcast_S_S64x256 : S_.BroadcastsInDim S64x256 (![] : Fin 0 → Fin S64x256.rank)
  reducesTo_S64x256_S_d0_1 : S64x256.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S1x64 : S_.BroadcastsInDim S1x64 (![] : Fin 0 → Fin S1x64.rank)
  reducesTo_S1x64_S_d0_1 : S1x64.ReducesTo [0, 1] S_
  bcast_S_S1 : S_.BroadcastsInDim S1 (![] : Fin 0 → Fin S1.rank)
  reducesTo_S1_S_d0 : S1.ReducesTo [0] S_
  reducesTo_S_S_d : S_.ReducesTo [] S_

variable [Facts]

def fn_part2 {F : FTy → Type} [FloatOps F] (main_arg7 : FVec F S_ .f32) (main_arg8 : FVec F S_ .f32) (main_v33 : IVec S_ 1) : IVec S_ 1 :=
  let main_v34 : FVec F S_ .f32 := Host.absf main_arg7
  let main_cst_12 : FVec F S_ .f32 := constant S_ .f32 0x7F800000#32
  let main_v35 : IVec S_ 1 := cmpf .olt main_v34 main_cst_12
  let main_c_13 : IVec S_ 1 := constantI S_ 1 1#1
  let main_v36 : IVec S_ 1 := (fun x v => Host.reduce IntOp.andi x v reducesTo_S_S_d h_S_) main_v35 main_c_13
  let main_v37 : IVec S_ 1 := andi main_v33 main_v36
  let main_v38 : FVec F S_ .f32 := Host.absf main_arg8
  let main_cst_14 : FVec F S_ .f32 := constant S_ .f32 0x7F800000#32
  let main_v39 : IVec S_ 1 := cmpf .olt main_v38 main_cst_14
  let main_c_15 : IVec S_ 1 := constantI S_ 1 1#1
  let main_v40 : IVec S_ 1 := (fun x v => Host.reduce IntOp.andi x v reducesTo_S_S_d h_S_) main_v39 main_c_15
  let main_v41 : IVec S_ 1 := andi main_v37 main_v40
  main_v41

def fn_part1 {F : FTy → Type} [FloatOps F] (main_arg4 : FVec F S64 .f32) (main_arg5 : FVec F S1x64 .f32) (main_arg6 : FVec F S1 .f32) (main_arg7 : FVec F S_ .f32) (main_arg8 : FVec F S_ .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S1x64 .f32 := Host.absf main_arg5
  let main_cst_8 : FVec F S_ .f32 := constant S_ .f32 0x7F800000#32
  let main_v25 : FVec F S1x64 .f32 := broadcastInDim S1x64 ![] bcast_S_S1x64 main_cst_8
  let main_v26 : IVec S1x64 1 := cmpf .olt main_v24 main_v25
  let main_c_9 : IVec S_ 1 := constantI S_ 1 1#1
  let main_v27 : IVec S_ 1 := (fun x v => Host.reduce IntOp.andi x v reducesTo_S1x64_S_d0_1 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg7 main_arg8 main_v33

def fn {F : FTy → Type} [FloatOps F] (main_arg0 : FVec F S500000x256 .f32) (main_arg1 : FVec F S64x256 .f32) (main_arg2 : FVec F S64 .f32) (main_arg3 : FVec F S64x64 .f32) (main_arg4 : FVec F S64 .f32) (main_arg5 : FVec F S1x64 .f32) (main_arg6 : FVec F S1 .f32) (main_arg7 : FVec F S_ .f32) (main_arg8 : FVec F S_ .f32) : IVec S_ 1 :=
  let main_v0 : FVec F S500000x256 .f32 := Host.absf main_arg0
  let main_cst : FVec F S_ .f32 := constant S_ .f32 0x7F800000#32
  let main_v1 : FVec F S500000x256 .f32 := broadcastInDim S500000x256 ![] bcast_S_S500000x256 main_cst
  let main_v2 : IVec S500000x256 1 := cmpf .olt main_v0 main_v1
  let main_c : IVec S_ 1 := constantI S_ 1 1#1
  let main_v3 : IVec S_ 1 := (fun x v => Host.reduce IntOp.andi x v reducesTo_S500000x256_S_d0_1 h_S_) main_v2 main_c
  let main_v4 : FVec F S64x256 .f32 := Host.absf main_arg1
  let main_cst_0 : FVec F S_ .f32 := constant S_ .f32 0x7F800000#32
  let main_v5 : FVec F S64x256 .f32 := broadcastInDim S64x256 ![] bcast_S_S64x256 main_cst_0
  let main_v6 : IVec S64x256 1 := cmpf .olt main_v4 main_v5
  let main_c_1 : IVec S_ 1 := constantI S_ 1 1#1
  let main_v7 : IVec S_ 1 := (fun x v => Host.reduce IntOp.andi x v reducesTo_S64x256_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_arg5 main_arg6 main_arg7 main_arg8 main_v13 main_v16
-- ==== Kernel.lean ====
abbrev S500000x256 : Shape := ⟨2, ![500000, 256]⟩
abbrev S64x256 : Shape := ⟨2, ![64, 256]⟩
abbrev S64 : Shape := ⟨1, ![64]⟩
abbrev S64x64 : Shape := ⟨2, ![64, 64]⟩
abbrev S1x64 : Shape := ⟨2, ![1, 64]⟩
abbrev S1 : Shape := ⟨1, ![1]⟩
abbrev S_ : Shape := ⟨0, ![]⟩
abbrev S1x1 : Shape := ⟨2, ![1, 1]⟩
abbrev S250x1x2000 : Shape := ⟨3, ![250, 1, 2000]⟩
abbrev S2000x256 : Shape := ⟨2, ![2000, 256]⟩
abbrev S1x1x2000 : Shape := ⟨3, ![1, 1, 2000]⟩
abbrev S256x64 : Shape := ⟨2, ![256, 64]⟩
abbrev S2000x64 : Shape := ⟨2, ![2000, 64]⟩
abbrev S64x1 : Shape := ⟨2, ![64, 1]⟩
abbrev S2000x1 : Shape := ⟨2, ![2000, 1]⟩
abbrev S1x2000 : Shape := ⟨2, ![1, 2000]⟩
abbrev S500000x1 : Shape := ⟨2, ![500000, 1]⟩

abbrev nBuf : Space → Nat
  | .hbm => 113
  | .vmem => 12
  | .smem => 0
  | _ => 0

abbrev bufTy : (tb : Table) → Fin (tcTables nBuf tb) → BufTy
  | .hbm, ⟨0, _⟩ => ⟨S500000x256, .f32⟩
  | .hbm, ⟨1, _⟩ => ⟨S64x256, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S1x64, .f32⟩
  | .hbm, ⟨6, _⟩ => ⟨S1, .f32⟩
  | .hbm, ⟨7, _⟩ => ⟨S_, .f32⟩
  | .hbm, ⟨8, _⟩ => ⟨S_, .f32⟩
  | .hbm, ⟨9, _⟩ => ⟨S64x256, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S64x256, .f32⟩
  | .hbm, ⟨26, _⟩ => ⟨S64x256, .f32⟩
  | .hbm, ⟨27, _⟩ => ⟨S64x256, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S64x256, .f32⟩
  | .hbm, ⟨32, _⟩ => ⟨S64x256, .f32⟩
  | .hbm, ⟨33, _⟩ => ⟨S_, .f32⟩
  | .hbm, ⟨34, _⟩ => ⟨S64x256, .f32⟩
  | .hbm, ⟨35, _⟩ => ⟨S64x256, .f32⟩
  | .hbm, ⟨36, _⟩ => ⟨S64x256, .f32⟩
  | .hbm, ⟨37, _⟩ => ⟨S64x256, .f32⟩
  | .hbm, ⟨38, _⟩ => ⟨S64x256, .f32⟩
  | .hbm, ⟨39, _⟩ => ⟨S64x256, .f32⟩
  | .hbm, ⟨40, _⟩ => ⟨S64x64, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S64x64, .f32⟩
  | .hbm, ⟨57, _⟩ => ⟨S64x64, .f32⟩
  | .hbm, ⟨58, _⟩ => ⟨S64x64, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S64x64, .f32⟩
  | .hbm, ⟨63, _⟩ => ⟨S64x64, .f32⟩
  | .hbm, ⟨64, _⟩ => ⟨S_, .f32⟩
  | .hbm, ⟨65, _⟩ => ⟨S64x64, .f32⟩
  | .hbm, ⟨66, _⟩ => ⟨S64x64, .f32⟩
  | .hbm, ⟨67, _⟩ => ⟨S64x64, .f32⟩
  | .hbm, ⟨68, _⟩ => ⟨S64x64, .f32⟩
  | .hbm, ⟨69, _⟩ => ⟨S64x64, .f32⟩
  | .hbm, ⟨70, _⟩ => ⟨S64x64, .f32⟩
  | .hbm, ⟨71, _⟩ => ⟨S1x64, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S1x64, .f32⟩
  | .hbm, ⟨88, _⟩ => ⟨S1x64, .f32⟩
  | .hbm, ⟨89, _⟩ => ⟨S1x64, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S1x64, .f32⟩
  | .hbm, ⟨94, _⟩ => ⟨S1x64, .f32⟩
  | .hbm, ⟨95, _⟩ => ⟨S_, .f32⟩
  | .hbm, ⟨96, _⟩ => ⟨S1x64, .f32⟩
  | .hbm, ⟨97, _⟩ => ⟨S1x64, .f32⟩
  | .hbm, ⟨98, _⟩ => ⟨S1x64, .f32⟩
  | .hbm, ⟨99, _⟩ => ⟨S1x64, .f32⟩
  | .hbm, ⟨100, _⟩ => ⟨S1x64, .f32⟩
  | .hbm, ⟨101, _⟩ => ⟨S1x64, .f32⟩
  | .hbm, ⟨102, _⟩ => ⟨S64x64, .f32⟩
  | .hbm, ⟨103, _⟩ => ⟨S64x64, .f32⟩
  | .hbm, ⟨104, _⟩ => ⟨S1x64, .f32⟩
  | .hbm, ⟨105, _⟩ => ⟨S1x64, .f32⟩
  | .hbm, ⟨106, _⟩ => ⟨S1x1, .f32⟩
  | .hbm, ⟨107, _⟩ => ⟨S1x1, .f32⟩
  | .hbm, ⟨108, _⟩ => ⟨S1x64, .f32⟩
  | .hbm, ⟨109, _⟩ => ⟨S1x64, .f32⟩
  | .hbm, ⟨110, _⟩ => ⟨S1x1, .f32⟩
  | .hbm, ⟨111, _⟩ => ⟨S250x1x2000, .f32⟩
  | .hbm, ⟨112, _⟩ => ⟨S500000x1, .f32⟩
  | .local _ .vmem, ⟨0, _⟩ => ⟨S2000x256, .f32⟩
  | .local _ .vmem, ⟨1, _⟩ => ⟨S2000x256, .f32⟩
  | .local _ .vmem, ⟨2, _⟩ => ⟨S64x256, .f32⟩
  | .local _ .vmem, ⟨3, _⟩ => ⟨S1x64, .f32⟩
  | .local _ .vmem, ⟨4, _⟩ => ⟨S64x64, .f32⟩
  | .local _ .vmem, ⟨5, _⟩ => ⟨S1x64, .f32⟩
  | .local _ .vmem, ⟨6, _⟩ => ⟨S1x64, .f32⟩
  | .local _ .vmem, ⟨7, _⟩ => ⟨S1x1, .f32⟩
  | .local _ .vmem, ⟨8, _⟩ => ⟨S1x1, .f32⟩
  | .local _ .vmem, ⟨9, _⟩ => ⟨S1x1, .f32⟩
  | .local _ .vmem, ⟨10, _⟩ => ⟨S1x1x2000, .f32⟩
  | .local _ .vmem, ⟨11, _⟩ => ⟨S1x1x2000, .f32⟩
  | _, _ => ⟨S500000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_2 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_3 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_4 : Ref sig .tc := ⟨.hbm, 28, rfl⟩
abbrev main_cst_5 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_cst_6 : Ref sig .tc := ⟨.hbm, 41, rfl⟩
abbrev main_v20 : Ref sig .tc := ⟨.hbm, 42, rfl⟩
abbrev main_cst_7 : Ref sig .tc := ⟨.hbm, 43, rfl⟩
abbrev main_v21 : Ref sig .tc := ⟨.hbm, 44, rfl⟩
abbrev main_v22 : Ref sig .tc := ⟨.hbm, 45, rfl⟩
abbrev main_cst_8 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_cst_9 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_cst_10 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_cst_11 : Ref sig .tc := ⟨.hbm, 59, rfl⟩
abbrev main_cst_12 : Ref sig .tc := ⟨.hbm, 60, rfl⟩
abbrev main_call3_v0 : Ref sig .tc := ⟨.hbm, 61, rfl⟩
abbrev main_call3_v1 : Ref sig .tc := ⟨.hbm, 62, rfl⟩
abbrev main_call3_v2 : Ref sig .tc := ⟨.hbm, 63, rfl⟩
abbrev main_call3_v3 : Ref sig .tc := ⟨.hbm, 64, rfl⟩
abbrev main_call3_v4 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_cst_13 : Ref sig .tc := ⟨.hbm, 72, rfl⟩
abbrev main_v39 : Ref sig .tc := ⟨.hbm, 73, rfl⟩
abbrev main_cst_14 : Ref sig .tc := ⟨.hbm, 74, rfl⟩
abbrev main_v40 : Ref sig .tc := ⟨.hbm, 75, rfl⟩
abbrev main_v41 : Ref sig .tc := ⟨.hbm, 76, rfl⟩
abbrev main_cst_15 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_cst_16 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_cst_17 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_cst_18 : Ref sig .tc := ⟨.hbm, 90, rfl⟩
abbrev main_cst_19 : Ref sig .tc := ⟨.hbm, 91, rfl⟩
abbrev main_call5_v0 : Ref sig .tc := ⟨.hbm, 92, rfl⟩
abbrev main_call5_v1 : Ref sig .tc := ⟨.hbm, 93, rfl⟩
abbrev main_call5_v2 : Ref sig .tc := ⟨.hbm, 94, rfl⟩
abbrev main_call5_v3 : Ref sig .tc := ⟨.hbm, 95, rfl⟩
abbrev main_call5_v4 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x1x2000 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  reducesTo_S64x256_S_d0_1 : S64x256.ReducesTo [0, 1] S_
  h_S_ : 0 < S_.numel
  bcast_S_S_ : S_.BroadcastsInDim S_ (![] : Fin 0 → Fin S_.rank)
  bcast_S_S64x256 : S_.BroadcastsInDim S64x256 (![] : Fin 0 → Fin S64x256.rank)
  reducesTo_S64x64_S_d0_1 : S64x64.ReducesTo [0, 1] S_
  bcast_S_S64x64 : S_.BroadcastsInDim S64x64 (![] : Fin 0 → Fin S64x64.rank)
  reducesTo_S1x64_S_d0_1 : S1x64.ReducesTo [0, 1] S_
  bcast_S_S1x64 : S_.BroadcastsInDim S1x64 (![] : Fin 0 → Fin S1x64.rank)
  shapeCasts_S_S1x1 : S_.ShapeCasts S1x1
  shapeCasts_S64_S1x64 : S64.ShapeCasts S1x64
  shapeCasts_S1_S1x1 : S1.ShapeCasts S1x1
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S2000x256_S2000x256_0_0 : ∀ a, (![0, 0] : Fin 2 → Nat) a + S2000x256.size a ≤ S2000x256.size a
  h_S2000x256 : 0 < S2000x256.numel
  inb_S64x256_S64x256_0_0 : ∀ a, (![0, 0] : Fin 2 → Nat) a + S64x256.size a ≤ S64x256.size a
  h_S64x256 : 0 < S64x256.numel
  shapeCasts_S64x256_S64x256 : S64x256.ShapeCasts S64x256
  transposes_S64x256_p1_0_S256x64 : S64x256.Transposes [1, 0] S256x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  transposes_S64x64_p1_0_S64x64 : S64x64.Transposes [1, 0] S64x64
  bitsLt_bf16_f32 : FTy.bits .bf16 < FTy.bits .f32
  transposes_S1x64_p1_0_S64x1 : S1x64.Transposes [1, 0] S64x1
  shapeCasts_S1x1_S1x1 : S1x1.ShapeCasts S1x1
  broadcasts_S1x1_S2000x1 : S1x1.Broadcasts S2000x1
  transposes_S2000x1_p1_0_S1x2000 : S2000x1.Transposes [1, 0] S1x2000
  shapeCasts_S1x2000_S1x1x2000 : S1x2000.ShapeCasts S1x1x2000
  inb_S1x1x2000_S1x1x2000_0_0_0 : ∀ a, (![0, 0, 0] : Fin 3 → Nat) a + S1x1x2000.size a ≤ S1x1x2000.size a
  h_S1x1x2000 : 0 < S1x1x2000.numel
  shapeCasts_S250x1x2000_S500000x1 : S250x1x2000.ShapeCasts S500000x1
  dot_S2000x256_S256x64_S2000x64_1_0_0_1_n_n_wf : DotDims.WF S2000x256 S256x64 S2000x64 [1] [0] [0] [1] [] []
  dot_S2000x64_S64x64_S2000x64_1_0_0_1_n_n_wf : DotDims.WF S2000x64 S64x64 S2000x64 [1] [0] [0] [1] [] []
  dot_S2000x64_S64x1_S2000x1_1_0_0_1_n_n_wf : DotDims.WF S2000x64 S64x1 S2000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S500000x256.size a
  hwx0_0 : ∀ i : grid0.Coords, EltTy.bits .f32 = 32 ∨ (Rect.block (s := S500000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x256.size a ≤ S64x256.size a
  hwx0_1 : ∀ i : grid0.Coords, EltTy.bits .f32 = 32 ∨ (Rect.block (s := S64x256) S64x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1.size a ≤ S1x1.size a
  hwx0_7 : ∀ i : grid0.Coords, EltTy.bits .f32 = 32 ∨ (Rect.block (s := S1x1) S1x1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1.size a ≤ S1x1.size a
  hwx0_8 : ∀ i : grid0.Coords, EltTy.bits .f32 = 32 ∨ (Rect.block (s := S1x1) S1x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x1x2000.size a ≤ S250x1x2000.size a
  hwx0_9 : ∀ i : grid0.Coords, EltTy.bits .f32 = 32 ∨ (Rect.block (s := S250x1x2000) S1x1x2000.size (cc0_transform_9 i) (hinb0_9 i)).WholeWords (EltTy.packing .f32)

variable [Facts₀]

def dot_S2000x256_S256x64_S2000x64_1_0_0_1_n_n : DotDims S2000x256 S256x64 S2000x64 where
  lhsContracting := [1]
  rhsContracting := [0]
  lhsNonContracting := [0]
  rhsNonContracting := [1]
  lhsBatch := []
  rhsBatch := []
  wf := dot_S2000x256_S256x64_S2000x64_1_0_0_1_n_n_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def dot_S2000x64_S64x1_S2000x1_1_0_0_1_n_n : DotDims S2000x64 S64x1 S2000x1 where
  lhsContracting := [1]
  rhsContracting := [0]
  lhsNonContracting := [0]
  rhsNonContracting := [1]
  lhsBatch := []
  rhsBatch := []
  wf := dot_S2000x64_S64x1_S2000x1_1_0_0_1_n_n_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S64x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v63) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v58) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v64) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v60) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v65) S1x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v61) S1x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v62) S1x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v66) S1x1x2000.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S500000x256 : Shape := ⟨2, ![500000, 256]⟩
abbrev S64x256 : Shape := ⟨2, ![64, 256]⟩
abbrev S64 : Shape := ⟨1, ![64]⟩
abbrev S64x64 : Shape := ⟨2, ![64, 64]⟩
abbrev S1x64 : Shape := ⟨2, ![1, 64]⟩
abbrev S1 : Shape := ⟨1, ![1]⟩
abbrev S_ : Shape := ⟨0, ![]⟩
abbrev S256x64 : Shape := ⟨2, ![256, 64]⟩
abbrev S500000x64 : Shape := ⟨2, ![500000, 64]⟩
abbrev S64x1 : Shape := ⟨2, ![64, 1]⟩
abbrev S500000x1 : Shape := ⟨2, ![500000, 1]⟩
abbrev S1x1 : Shape := ⟨2, ![1, 1]⟩

abbrev nBuf : Space → Nat
  | .hbm => 153
  | .vmem => 0
  | .smem => 0
  | _ => 0

abbrev hbmTy0_0 (i : Nat) : BufTy := match i % 128 with
  | 0 => ⟨S500000x256, .f32⟩
  | 1 => ⟨S64x256, .f32⟩
  | 2 => ⟨S64, .f32⟩
  | 3 => ⟨S64x64, .f32⟩
  | 4 => ⟨S64, .f32⟩
  | 5 => ⟨S1x64, .f32⟩
  | 6 => ⟨S1, .f32⟩
  | 7 => ⟨S_, .f32⟩
  | 8 => ⟨S_, .f32⟩
  | 9 => ⟨S64x256, .f32⟩
  | 10 => ⟨S_, .f32⟩
  | 11 => ⟨S_, .f32⟩
  | 12 => ⟨S_, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | 19 => ⟨S_, .f32⟩
  | 20 => ⟨S_, .f32⟩
  | 21 => ⟨S_, .f32⟩
  | 22 => ⟨S_, .f32⟩
  | 23 => ⟨S_, .f32⟩
  | 24 => ⟨S_, .f32⟩
  | 25 => ⟨S64x256, .f32⟩
  | 26 => ⟨S64x256, .f32⟩
  | 27 => ⟨S64x256, .f32⟩
  | 28 => ⟨S_, .f32⟩
  | 29 => ⟨S_, .f32⟩
  | 30 => ⟨S_, .f32⟩
  | 31 => ⟨S64x256, .f32⟩
  | 32 => ⟨S64x256, .f32⟩
  | 33 => ⟨S_, .f32⟩
  | 34 => ⟨S64x256, .f32⟩
  | 35 => ⟨S64x256, .f32⟩
  | 36 => ⟨S64x256, .f32⟩
  | 37 => ⟨S64x256, .f32⟩
  | 38 => ⟨S64x256, .f32⟩
  | 39 => ⟨S64x256, .f32⟩
  | 40 => ⟨S256x64, .f32⟩
  | 41 => ⟨S500000x64, .f32⟩
  | 42 => ⟨S1x64, .f32⟩
  | 43 => ⟨S500000x64, .f32⟩
  | 44 => ⟨S500000x64, .f32⟩
  | 45 => ⟨S_, .f32⟩
  | 46 => ⟨S500000x64, .f32⟩
  | 47 => ⟨S500000x64, .f32⟩
  | 48 => ⟨S500000x64, .f32⟩
  | 49 => ⟨S500000x64, .f32⟩
  | 50 => ⟨S500000x64, .f32⟩
  | 51 => ⟨S_, .f32⟩
  | 52 => ⟨S_, .f32⟩
  | 53 => ⟨S_, .f32⟩
  | 54 => ⟨S500000x64, .f32⟩
  | 55 => ⟨S500000x64, .f32⟩
  | 56 => ⟨S_, .f32⟩
  | 57 => ⟨S500000x64, .f32⟩
  | 58 => ⟨S500000x64, .f32⟩
  | 59 => ⟨S500000x64, .f32⟩
  | 60 => ⟨S500000x64, .f32⟩
  | 61 => ⟨S500000x64, .f32⟩
  | 62 => ⟨S500000x64, .f32⟩
  | 63 => ⟨S64x64, .f32⟩
  | 64 => ⟨S_, .f32⟩
  | 65 => ⟨S_, .f32⟩
  | 66 => ⟨S_, .f32⟩
  | 67 => ⟨S_, .f32⟩
  | 68 => ⟨S_, .f32⟩
  | 69 => ⟨S_, .f32⟩
  | 70 => ⟨S_, .f32⟩
  | 71 => ⟨S_, .f32⟩
  | 72 => ⟨S_, .f32⟩
  | 73 => ⟨S_, .f32⟩
  | 74 => ⟨S_, .f32⟩
  | 75 => ⟨S_, .f32⟩
  | 76 => ⟨S_, .f32⟩
  | 77 => ⟨S_, .f32⟩
  | 78 => ⟨S_, .f32⟩
  | 79 => ⟨S64x64, .f32⟩
  | 80 => ⟨S64x64, .f32⟩
  | 81 => ⟨S64x64, .f32⟩
  | 82 => ⟨S_, .f32⟩
  | 83 => ⟨S_, .f32⟩
  | 84 => ⟨S_, .f32⟩
  | 85 => ⟨S64x64, .f32⟩
  | 86 => ⟨S64x64, .f32⟩
  | 87 => ⟨S_, .f32⟩
  | 88 => ⟨S64x64, .f32⟩
  | 89 => ⟨S64x64, .f32⟩
  | 90 => ⟨S64x64, .f32⟩
  | 91 => ⟨S64x64, .f32⟩
  | 92 => ⟨S64x64, .f32⟩
  | 93 => ⟨S64x64, .f32⟩
  | 94 => ⟨S64x64, .f32⟩
  | 95 => ⟨S500000x64, .f32⟩
  | 96 => ⟨S1x64, .f32⟩
  | 97 => ⟨S500000x64, .f32⟩
  | 98 => ⟨S500000x64, .f32⟩
  | 99 => ⟨S_, .f32⟩
  | 100 => ⟨S500000x64, .f32⟩
  | 101 => ⟨S500000x64, .f32⟩
  | 102 => ⟨S500000x64, .f32⟩
  | 103 => ⟨S500000x64, .f32⟩
  | 104 => ⟨S500000x64, .f32⟩
  | 105 => ⟨S_, .f32⟩
  | 106 => ⟨S_, .f32⟩
  | 107 => ⟨S_, .f32⟩
  | 108 => ⟨S500000x64, .f32⟩
  | 109 => ⟨S500000x64, .f32⟩
  | 110 => ⟨S_, .f32⟩
  | 111 => ⟨S500000x64, .f32⟩
  | 112 => ⟨S500000x64, .f32⟩
  | 113 => ⟨S500000x64, .f32⟩
  | 114 => ⟨S500000x64, .f32⟩
  | 115 => ⟨S500000x64, .f32⟩
  | 116 => ⟨S500000x64, .f32⟩
  | 117 => ⟨S1x64, .f32⟩
  | 118 => ⟨S_, .f32⟩
  | 119 => ⟨S_, .f32⟩
  | 120 => ⟨S_, .f32⟩
  | 121 => ⟨S_, .f32⟩
  | 122 => ⟨S_, .f32⟩
  | 123 => ⟨S_, .f32⟩
  | 124 => ⟨S_, .f32⟩
  | 125 => ⟨S_, .f32⟩
  | 126 => ⟨S_, .f32⟩
  | 127 => ⟨S_, .f32⟩
  | _ => ⟨S500000x256, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S1x64, .f32⟩
  | 6 => ⟨S1x64, .f32⟩
  | 7 => ⟨S1x64, .f32⟩
  | 8 => ⟨S_, .f32⟩
  | 9 => ⟨S_, .f32⟩
  | 10 => ⟨S_, .f32⟩
  | 11 => ⟨S1x64, .f32⟩
  | 12 => ⟨S1x64, .f32⟩
  | 13 => ⟨S_, .f32⟩
  | 14 => ⟨S1x64, .f32⟩
  | 15 => ⟨S1x64, .f32⟩
  | 16 => ⟨S1x64, .f32⟩
  | 17 => ⟨S1x64, .f32⟩
  | 18 => ⟨S1x64, .f32⟩
  | 19 => ⟨S1x64, .f32⟩
  | 20 => ⟨S64x1, .f32⟩
  | 21 => ⟨S500000x1, .f32⟩
  | 22 => ⟨S1x1, .f32⟩
  | 23 => ⟨S500000x1, .f32⟩
  | 24 => ⟨S500000x1, .f32⟩
  | _ => ⟨S500000x256, .f32⟩

abbrev hbmTy (i : Nat) : BufTy := match i / 128 with
  | 0 => hbmTy0_0 i
  | 1 => hbmTy0_1 i
  | _ => ⟨S500000x256, .f32⟩

abbrev bufTy : (tb : Table) → Fin (tcTables nBuf tb) → BufTy
  | .hbm, ⟨i, _⟩ => hbmTy i
  | _, _ => ⟨S500000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_2 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_3 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_4 : Ref sig .tc := ⟨.hbm, 28, rfl⟩
abbrev main_cst_5 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_call2_cst : Ref sig .tc := ⟨.hbm, 45, rfl⟩
abbrev main_call2_v0 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_cst_6 : Ref sig .tc := ⟨.hbm, 51, rfl⟩
abbrev main_cst_7 : Ref sig .tc := ⟨.hbm, 52, rfl⟩
abbrev main_call4_v0 : Ref sig .tc := ⟨.hbm, 53, rfl⟩
abbrev main_call4_v1 : Ref sig .tc := ⟨.hbm, 54, rfl⟩
abbrev main_call4_v2 : Ref sig .tc := ⟨.hbm, 55, rfl⟩
abbrev main_call4_v3 : Ref sig .tc := ⟨.hbm, 56, rfl⟩
abbrev main_call4_v4 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_cst_8 : Ref sig .tc := ⟨.hbm, 64, rfl⟩
abbrev main_v34 : Ref sig .tc := ⟨.hbm, 65, rfl⟩
abbrev main_cst_9 : Ref sig .tc := ⟨.hbm, 66, rfl⟩
abbrev main_v35 : Ref sig .tc := ⟨.hbm, 67, rfl⟩
abbrev main_v36 : Ref sig .tc := ⟨.hbm, 68, rfl⟩
abbrev main_cst_10 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_cst_11 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_cst_12 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_cst_13 : Ref sig .tc := ⟨.hbm, 82, rfl⟩
abbrev main_cst_14 : Ref sig .tc := ⟨.hbm, 83, rfl⟩
abbrev main_call6_v0 : Ref sig .tc := ⟨.hbm, 84, rfl⟩
abbrev main_call6_v1 : Ref sig .tc := ⟨.hbm, 85, rfl⟩
abbrev main_call6_v2 : Ref sig .tc := ⟨.hbm, 86, rfl⟩
abbrev main_call6_v3 : Ref sig .tc := ⟨.hbm, 87, rfl⟩
abbrev main_call6_v4 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_call7_cst : Ref sig .tc := ⟨.hbm, 99, rfl⟩
abbrev main_call7_v0 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_cst_15 : Ref sig .tc := ⟨.hbm, 105, rfl⟩
abbrev main_cst_16 : Ref sig .tc := ⟨.hbm, 106, rfl⟩
abbrev main_call9_v0 : Ref sig .tc := ⟨.hbm, 107, rfl⟩
abbrev main_call9_v1 : Ref sig .tc := ⟨.hbm, 108, rfl⟩
abbrev main_call9_v2 : Ref sig .tc := ⟨.hbm, 109, rfl⟩
abbrev main_call9_v3 : Ref sig .tc := ⟨.hbm, 110, rfl⟩
abbrev main_call9_v4 : Ref sig .tc := ⟨.hbm, 111, rfl⟩
abbrev main_v61 : Ref sig .tc := ⟨.hbm, 112, rfl⟩
abbrev main_v62 : Ref sig .tc := ⟨.hbm, 113, rfl⟩
abbrev main_v63 : Ref sig .tc := ⟨.hbm, 114, rfl⟩
abbrev main_v64 : Ref sig .tc := ⟨.hbm, 115, rfl⟩
abbrev main_v65 : Ref sig .tc := ⟨.hbm, 116, rfl⟩
abbrev main_v66 : Ref sig .tc := ⟨.hbm, 117, rfl⟩
abbrev main_cst_17 : Ref sig .tc := ⟨.hbm, 118, rfl⟩
abbrev main_v67 : Ref sig .tc := ⟨.hbm, 119, rfl⟩
abbrev main_cst_18 : Ref sig .tc := ⟨.hbm, 120, rfl⟩
abbrev main_v68 : Ref sig .tc := ⟨.hbm, 121, rfl⟩
abbrev main_v69 : Ref sig .tc := ⟨.hbm, 122, rfl⟩
abbrev main_cst_19 : Ref sig .tc := ⟨.hbm, 123, rfl⟩
abbrev main_v70 : Ref sig .tc := ⟨.hbm, 124, rfl⟩
abbrev main_v71 : Ref sig .tc := ⟨.hbm, 125, rfl⟩
abbrev main_v72 : Ref sig .tc := ⟨.hbm, 126, rfl⟩
abbrev main_cst_20 : Ref sig .tc := ⟨.hbm, 127, rfl⟩
abbrev main_v73 : Ref sig .tc := ⟨.hbm, 128, rfl⟩
abbrev main_v74 : Ref sig .tc := ⟨.hbm, 129, rfl⟩
abbrev main_v75 : Ref sig .tc := ⟨.hbm, 130, rfl⟩
abbrev main_cst_21 : Ref sig .tc := ⟨.hbm, 131, rfl⟩
abbrev main_v76 : Ref sig .tc := ⟨.hbm, 132, rfl⟩
abbrev main_v77 : Ref sig .tc := ⟨.hbm, 133, rfl⟩
abbrev main_v78 : Ref sig .tc := ⟨.hbm, 134, rfl⟩
abbrev main_v79 : Ref sig .tc := ⟨.hbm, 135, rfl⟩
abbrev main_cst_22 : Ref sig .tc := ⟨.hbm, 136, rfl⟩
abbrev main_cst_23 : Ref sig .tc := ⟨.hbm, 137, rfl⟩
abbrev main_call11_v0 : Ref sig .tc := ⟨.hbm, 138, rfl⟩
abbrev main_call11_v1 : Ref sig .tc := ⟨.hbm, 139, rfl⟩
abbrev main_call11_v2 : Ref sig .tc := ⟨.hbm, 140, rfl⟩
abbrev main_call11_v3 : Ref sig .tc := ⟨.hbm, 141, rfl⟩
abbrev main_call11_v4 : Ref sig .tc := ⟨.hbm, 142, rfl⟩
abbrev main_v80 : Ref sig .tc := ⟨.hbm, 143, rfl⟩
abbrev main_v81 : Ref sig .tc := ⟨.hbm, 144, rfl⟩
abbrev main_v82 : Ref sig .tc := ⟨.hbm, 145, rfl⟩
abbrev main_v83 : Ref sig .tc := ⟨.hbm, 146, rfl⟩
abbrev main_v84 : Ref sig .tc := ⟨.hbm, 147, rfl⟩
abbrev main_v85 : Ref sig .tc := ⟨.hbm, 148, rfl⟩
abbrev main_v86 : Ref sig .tc := ⟨.hbm, 149, rfl⟩
abbrev main_v87 : Ref sig .tc := ⟨.hbm, 150, rfl⟩
abbrev main_v88 : Ref sig .tc := ⟨.hbm, 151, rfl⟩
abbrev main_v89 : Ref sig .tc := ⟨.hbm, 152, rfl⟩

abbrev nD : Nat := 1
abbrev τ : Topo := Topo.v7x

variable {F : FTy → Type} [FloatOps F]

class Facts₀ : Prop where
  reducesTo_S64x256_S_d0_1 : S64x256.ReducesTo [0, 1] S_
  h_S_ : 0 < S_.numel
  bcast_S_S_ : S_.BroadcastsInDim S_ (![] : Fin 0 → Fin S_.rank)
  bcast_S_S64x256 : S_.BroadcastsInDim S64x256 (![] : Fin 0 → Fin S64x256.rank)
  transposes_S64x256_S256x64_1_0 : S64x256.Transposes [1, 0] S256x64
  bcast_S64_S1x64_1 : S64.BroadcastsInDim S1x64 (![1] : Fin 1 → Fin S1x64.rank)
  bcast_S1x64_S500000x64_0_1 : S1x64.BroadcastsInDim S500000x64 (![0, 1] : Fin 2 → Fin S500000x64.rank)
  bcast_S_S500000x64 : S_.BroadcastsInDim S500000x64 (![] : Fin 0 → Fin S500000x64.rank)
  reducesTo_S64x64_S_d0_1 : S64x64.ReducesTo [0, 1] S_
  bcast_S_S64x64 : S_.BroadcastsInDim S64x64 (![] : Fin 0 → Fin S64x64.rank)
  transposes_S64x64_S64x64_1_0 : S64x64.Transposes [1, 0] S64x64
  reducesTo_S1x64_S_d0_1 : S1x64.ReducesTo [0, 1] S_
  bcast_S_S1x64 : S_.BroadcastsInDim S1x64 (![] : Fin 0 → Fin S1x64.rank)
  transposes_S1x64_S64x1_1_0 : S1x64.Transposes [1, 0] S64x1
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  dot_S500000x256_S256x64_S500000x64_1_0_0_1_n_n_wf : DotDims.WF S500000x256 S256x64 S500000x64 [1] [0] [0] [1] [] []
  dot_S500000x64_S64x64_S500000x64_1_0_0_1_n_n_wf : DotDims.WF S500000x64 S64x64 S500000x64 [1] [0] [0] [1] [] []
  dot_S500000x64_S64x1_S500000x1_1_0_0_1_n_n_wf : DotDims.WF S500000x64 S64x1 S500000x1 [1] [0] [0] [1] [] []

variable [Facts₀]

def dot_S500000x256_S256x64_S500000x64_1_0_0_1_n_n : DotDims S500000x256 S256x64 S500000x64 where
  lhsContracting := [1]
  rhsContracting := [0]
  lhsNonContracting := [0]
  rhsNonContracting := [1]
  lhsBatch := []
  rhsBatch := []
  wf := dot_S500000x256_S256x64_S500000x64_1_0_0_1_n_n_wf
def dot_S500000x64_S64x64_S500000x64_1_0_0_1_n_n : DotDims S500000x64 S64x64 S500000x64 where
  lhsContracting := [1]
  rhsContracting := [0]
  lhsNonContracting := [0]
  rhsNonContracting := [1]
  lhsBatch := []
  rhsBatch := []
  wf := dot_S500000x64_S64x64_S500000x64_1_0_0_1_n_n_wf
def dot_S500000x64_S64x1_S500000x1_1_0_0_1_n_n : DotDims S500000x64 S64x1 S500000x1 where
  lhsContracting := [1]
  rhsContracting := [0]
  lhsNonContracting := [0]
  rhsNonContracting := [1]
  lhsBatch := []
  rhsBatch := []
  wf := dot_S500000x64_S64x1_S500000x1_1_0_0_1_n_n_wf

class Facts : Prop extends Facts₀ where

variable [Facts]
-- ==== Proof.Spec.lean ====
/-
  The arithmetic of the quantised three-layer perceptron, on the extended reals, with no program in sight.

  A weight matrix is quantised entry by entry: `wq s w = w + (clip₋₁₂₈¹²⁷ (round (w / s)) · s - w)`, the straight-through form
  of `clip (round (w / s)) · s` (`s` the per-tensor scale, here ANY extended real: it is never opened).
  An activation is quantised to its 8-bit code `qcode a h = clip₀²⁵⁵ (round (max h 0 / a))`; the reference then dequantises it,
  again in straight-through form, `deq a h = max h 0 + (qcode a h · a - max h 0)`, while the kernel keeps the code and folds the
  step `a` into the NEXT layer's weights.  One output row of the kernel is `kerRow`, one of the reference `refRow`.

  The two agree when the inputs are real numbers: then every pre-activation `h` is a real number, so the straight-through
  sum `r + (q - r)` collapses to `q` (it would not at `r = +∞`), and `(code · a) · w = code · (a · w)` is associativity.
  That a quantised weight is a real number whatever the scale is `wq_real`: off the reals the scale is `±∞`, the quotient
  `w / s` is then `0`, its code `0`, and `0 · (±∞) = 0`.
-/
import Idealize.ShloMosaic.PureOps.Ideal
import Idealize.ShloMosaic.PureOps.Ideal.Laws
import Idealize.ShloMosaic.Lib.ValueIdx

noncomputable section

namespace Cert.QMlp

open Idealize.ShloMosaic

/-! ## The literals -/

/-- `0.0` -/
abbrev c0 : EReal := Ideal.ofBits .f32 0x00000000#32
/-- `255.0` -/
abbrev c255 : EReal := Ideal.ofBits .f32 0x437F0000#32
/-- `-128.0` -/
abbrev cm128 : EReal := Ideal.ofBits .f32 0xC3000000#32
/-- `127.0` -/
abbrev c127 : EReal := Ideal.ofBits .f32 0x42FE0000#32

theorem c0_eq : c0 = 0 := Ideal.ofBits_zero_f32
theorem c255_eq : c255 = ((255 : ℝ) : EReal) := by
  simp [c255, Ideal.ofBits, Ideal.ieee, -EReal.coe_mul]; norm_num
theorem cm128_eq : cm128 = ((-128 : ℝ) : EReal) := by
  simp [cm128, Ideal.ofBits, Ideal.ieee, -EReal.coe_mul]; norm_num
theorem c127_eq : c127 = ((127 : ℝ) : EReal) := by
  simp [c127, Ideal.ofBits, Ideal.ieee, -EReal.coe_mul]; norm_num

/-! ## The scalar functions -/

/-- Round to nearest, ties to even, the infinities fixed. -/
abbrev rne (x : EReal) : EReal := Ideal.liftRound Ideal.roundHalfEven x

/-- One entry of a quantised weight tensor, in straight-through form, at scale `s`. -/
def wq (s w : EReal) : EReal := w + (min c127 (max cm128 (rne (Ideal.div w s))) * s - w)

/-- The 8-bit code of an activation at step `a`: relu, divide, round, clip to `[0, 255]`. -/
def qcode (a h : EReal) : EReal := min c255 (max c0 (rne (Ideal.div (max h c0) a)))

/-- The dequantised activation as the reference spells it (straight-through). -/
def deq (a h : EReal) : EReal := max h c0 + (qcode a h * a - max h c0)

/-- A dot product over `Fin n`. -/
def dot {n : Nat} (x w : Fin n → EReal) : EReal := ∑ k, x k * w k

/-- One output row as the kernel computes it: codes throughout, the steps folded into `W2f`, `W3f`. -/
def kerRow (x : Fin 256 → EReal) (W1 : Fin 64 → Fin 256 → EReal) (b1 : Fin 64 → EReal) (W2f : Fin 64 → Fin 64 → EReal)
    (b2 : Fin 64 → EReal) (W3f : Fin 64 → EReal) (b3 a1 a2 : EReal) : EReal :=
  dot (fun k => qcode a2 (dot (fun j => qcode a1 (dot x (W1 j) + b1 j)) (W2f k) + b2 k)) W3f + b3

/-- One output row as the reference computes it: dequantised activations against the plain quantised weights. -/
def refRow (x : Fin 256 → EReal) (W1 : Fin 64 → Fin 256 → EReal) (b1 : Fin 64 → EReal) (W2 : Fin 64 → Fin 64 → EReal)
    (b2 : Fin 64 → EReal) (W3 : Fin 64 → EReal) (b3 a1 a2 : EReal) : EReal :=
  dot (fun k => deq a2 (dot (fun j => deq a1 (dot x (W1 j) + b1 j)) (W2 k) + b2 k)) W3 + b3

/-! ## Real numbers stay real -/

/-- An extended real is a real number. -/
def IsReal (x : EReal) : Prop := ∃ r : ℝ, x = (r : EReal)

theorem isReal_coe (r : ℝ) : IsReal (r : EReal) := ⟨r, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.max {x y : EReal} (hx : IsReal x) (hy : IsReal y) : IsReal (max x y) := by
  rcases max_choice x y with h | h <;> rw [h] <;> assumption

theorem isReal_sum {ι : Type*} (s : Finset ι) (f : ι → EReal) (h : ∀ i, IsReal (f i)) : IsReal (∑ i ∈ s, f i) := by
  classical
  induction s using Finset.induction_on with
  | empty => exact ⟨0, by simp⟩
  | insert a s ha ih => rw [Finset.sum_insert ha]; exact (h a).add ih

theorem isReal_dot {n : Nat} {x w : Fin n → EReal} (hx : ∀ k, IsReal (x k)) (hw : ∀ k, IsReal (w k)) : IsReal (dot x w) :=
  isReal_sum _ _ fun k => (hx k).mul (hw k)

/-- A value clipped between two real numbers is a real number, whatever it was. -/
theorem isReal_clip {lo hi : EReal} (hlo : IsReal lo) (hhi : IsReal hi) (x : EReal) : IsReal (min hi (max lo x)) := by
  obtain ⟨l, rfl⟩ := hlo; obtain ⟨h, rfl⟩ := hhi
  -- the clipped value lies between `min h l` and `h`, both real numbers, so it is neither infinity
  have htop : min (h : EReal) (max (l : EReal) x) ≠ ⊤ :=
    ne_top_of_le_ne_top (EReal.coe_ne_top h) (min_le_left _ _)
  have hbot : min (h : EReal) (max (l : EReal) x) ≠ ⊥ := by
    refine ne_bot_of_le_ne_bot (b := min (h : EReal) (l : EReal)) ?_ (min_le_min le_rfl (le_max_left _ _))
    rcases min_choice (h : EReal) (l : EReal) with e | e <;> rw [e] <;> exact EReal.coe_ne_bot _
  exact ⟨_, (EReal.coe_toReal htop hbot).symm⟩

theorem isReal_qcode (a h : EReal) : IsReal (qcode a h) :=
  isReal_clip ⟨0, c0_eq⟩ ⟨255, c255_eq⟩ _

/-- Rounding fixes zero. -/
private theorem rne_zero : rne 0 = 0 := by
  show Ideal.liftRound Ideal.roundHalfEven ((0 : ℝ) : EReal) = 0
  rw [Ideal.liftRound_coe]
  norm_num [Ideal.roundHalfEven]

/-- Zero already lies between `-128` and `127`. -/
private theorem clip_zero : min c127 (max cm128 (0 : EReal)) = 0 := by
  rw [cm128_eq, c127_eq]
  have h1 : ((-128 : ℝ) : EReal) ≤ 0 := by exact_mod_cast (by norm_num : (-128 : ℝ) ≤ 0)
  have h2 : (0 : EReal) ≤ ((127 : ℝ) : EReal) := by exact_mod_cast (by norm_num : (0 : ℝ) ≤ 127)
  rw [max_eq_right h1, min_eq_right h2]

/-- At an infinite scale the quotient is `w · 0 = 0`. -/
private theorem div_inf {s : EReal} (hs : s = ⊤ ∨ s = ⊥) (w : EReal) : Ideal.div w s = 0 := by
  rcases hs with rfl | rfl
  · simp [Ideal.div, EReal.inv_top]
  · simp [Ideal.div, EReal.inv_bot]

/-- A quantised weight is a real number when the weight is, at ANY scale. -/
theorem isReal_wq (s : EReal) {w : EReal} (hw : IsReal w) : IsReal (wq s w) := by
  unfold wq
  have hc : IsReal (min c127 (max cm128 (rne (Ideal.div w s)))) :=
    isReal_clip ⟨_, cm128_eq⟩ ⟨_, c127_eq⟩ _
  have hinf : ∀ t : EReal, t = ⊤ ∨ t = ⊥ →
      IsReal (w + (min c127 (max cm128 (rne (Ideal.div w t))) * t - w)) := by
    intro t ht
    -- the quotient is `0`, its code `0`, and `0 · (±∞) = 0`
    rw [div_inf ht, rne_zero, clip_zero, zero_mul]
    exact hw.add ((isReal_coe 0).sub hw)
  induction s using EReal.rec with
  | coe r => exact hw.add ((hc.mul (isReal_coe r)).sub hw)
  | top => exact hinf ⊤ (Or.inl rfl)
  | bot => exact hinf ⊥ (Or.inr rfl)

/-! ## The per-tensor scale, as both programs spell it

`2 ^ ⌈log₂ (max (max |W|) 1e-12)⌉ / 128`, with `log₂ = log / log 2` and `2 ^ e = exp (0.693147182 · e)`.
Nothing below depends on what this number is; it is named so that the two programs' copies are one term. -/

/-- The scale of a rank-2 weight tensor (a scalar tensor). -/
def scaleVec {a b : Nat} (hr : (⟨2, ![a, b]⟩ : Shape).ReducesTo [0, 1] ⟨0, ![]⟩) (h0 : 0 < (⟨0, ![]⟩ : Shape).numel)
    (hb : (⟨0, ![]⟩ : Shape).BroadcastsInDim ⟨0, ![]⟩ (![] : Fin 0 → Fin 0))
    (W : FVec Ideal ⟨2, ![a, b]⟩ .f32) : FVec Ideal ⟨0, ![]⟩ .f32 :=
  Host.divf (Host.exp (mulf (broadcastInDim ⟨0, ![]⟩ ![] hb (constant ⟨0, ![]⟩ .f32 0x3F317218#32))
      (Host.ceil (Host.divf (Host.log (maximumf (Host.reduce FloatOps.maximumf (Host.absf W) (constant ⟨0, ![]⟩ .f32 0xFF800000#32) hr h0)
        (constant ⟨0, ![]⟩ .f32 0x2B8CBCCC#32))) (Host.log (constant ⟨0, ![]⟩ .f32 0x40000000#32))))))
    (constant ⟨0, ![]⟩ .f32 0x43000000#32)

/-- The quantised weight tensor, entry by entry, at its own scale. -/
def wqAt {a b : Nat} (hr : (⟨2, ![a, b]⟩ : Shape).ReducesTo [0, 1] ⟨0, ![]⟩) (h0 : 0 < (⟨0, ![]⟩ : Shape).numel)
    (hb : (⟨0, ![]⟩ : Shape).BroadcastsInDim ⟨0, ![]⟩ (![] : Fin 0 → Fin 0))
    (W : FVec Ideal ⟨2, ![a, b]⟩ .f32) (i : Fin a) (j : Fin b) : EReal :=
  wq (scaleVec hr h0 hb W ValueIdx.ix0) (W (ValueIdx.ix2 i j))

theorem isReal_wqAt {a b : Nat} (hr : (⟨2, ![a, b]⟩ : Shape).ReducesTo [0, 1] ⟨0, ![]⟩) (h0 : 0 < (⟨0, ![]⟩ : Shape).numel)
    (hb : (⟨0, ![]⟩ : Shape).BroadcastsInDim ⟨0, ![]⟩ (![] : Fin 0 → Fin 0))
    (W : FVec Ideal ⟨2, ![a, b]⟩ .f32) (hW : ∀ i, IsReal (W i)) (i : Fin a) (j : Fin b) : IsReal (wqAt hr h0 hb W i j) :=
  isReal_wq _ (hW _)

/-! ## The straight-through sum collapses on the reals -/

theorem ste {r q : EReal} (hr : IsReal r) (hq : IsReal q) : r + (q - r) = q := by
  obtain ⟨a, rfl⟩ := hr; obtain ⟨b, rfl⟩ := hq
  rw [← EReal.coe_sub, ← EReal.coe_add]; congr 1; ring

theorem deq_eq {a h : EReal} (ha : IsReal a) (hh : IsReal h) : deq a h = qcode a h * a :=
  ste (hh.max ⟨0, c0_eq⟩) ((isReal_qcode a h).mul ha)

/-! ## The two rows agree -/

/-- A common right factor of the left vector moves into the right vector: `(c · a) · w = c · (a · w)` termwise. -/
private theorem dot_fold {n : Nat} (c : Fin n → EReal) (a : EReal) (w : Fin n → EReal) :
    dot (fun j => c j * a) w = dot c (fun j => a * w j) := by
  unfold dot
  exact Finset.sum_congr rfl fun j _ => mul_assoc _ _ _

theorem refRow_eq_kerRow {x : Fin 256 → EReal} {W1 : Fin 64 → Fin 256 → EReal} {b1 : Fin 64 → EReal}
    {W2 : Fin 64 → Fin 64 → EReal} {b2 : Fin 64 → EReal} (W3 : Fin 64 → EReal) (b3 : EReal) {a1 a2 : EReal}
    (hx : ∀ d, IsReal (x d)) (hW1 : ∀ j d, IsReal (W1 j d)) (hb1 : ∀ j, IsReal (b1 j))
    (hW2 : ∀ k j, IsReal (W2 k j)) (hb2 : ∀ k, IsReal (b2 k)) (ha1 : IsReal a1) (ha2 : IsReal a2) :
    refRow x W1 b1 W2 b2 W3 b3 a1 a2
      = kerRow x W1 b1 (fun k j => a1 * W2 k j) b2 (fun k => a2 * W3 k) b3 a1 a2 := by
  unfold refRow kerRow
  -- the first pre-activation is a real number, so its dequantised value is `code · a1`
  have h1 : ∀ j, IsReal (dot x (W1 j) + b1 j) := fun j => (isReal_dot hx (hW1 j)).add (hb1 j)
  have e1 : (fun j => deq a1 (dot x (W1 j) + b1 j)) = fun j => qcode a1 (dot x (W1 j) + b1 j) * a1 :=
    funext fun j => deq_eq ha1 (h1 j)
  -- the step `a1` moves into the second layer's weights
  have e2 : ∀ k, dot (fun j => qcode a1 (dot x (W1 j) + b1 j) * a1) (W2 k)
      = dot (fun j => qcode a1 (dot x (W1 j) + b1 j)) (fun j => a1 * W2 k j) := fun k => dot_fold _ _ _
  -- so the second pre-activation is the same term on both sides, and a real number
  have h2 : ∀ k, IsReal (dot (fun j => qcode a1 (dot x (W1 j) + b1 j)) (fun j => a1 * W2 k j) + b2 k) :=
    fun k => (isReal_dot (fun j => isReal_qcode _ _) (fun j => ha1.mul (hW2 k j))).add (hb2 k)
  have e3 : (fun k => deq a2 (dot (fun j => qcode a1 (dot x (W1 j) + b1 j)) (fun j => a1 * W2 k j) + b2 k))
      = fun k => qcode a2 (dot (fun j => qcode a1 (dot x (W1 j) + b1 j)) (fun j => a1 * W2 k j) + b2 k) * a2 :=
    funext fun k => deq_eq ha2 (h2 k)
  simp only [e1, e2]
  rw [e3, dot_fold]

end Cert.QMlp

end
-- ==== Proof.Finite.lean ====
/-
  From the precondition to the real line: `finite_inputs` says, input by input, that every entry's absolute value is
  below `+∞`; on the extended reals that is to say the entry is a real number.
-/
import proofs.«407092_j9895604650610_3_alg».proof.Defs
import proofs.«407092_j9895604650610_3_alg».proof.Proof.Gen.Pre_finite_inputs
import proofs.«407092_j9895604650610_3_alg».proof.Proof.Spec
import Idealize.ShloMosaic.Lib.ReduceAll
import Idealize.ShloMosaic.Lib.ValueIdx

noncomputable section

namespace Cert.Finite

open Idealize.ShloMosaic Idealize.ShloMosaic.ValueIdx Cert.QMlp Cert.Pre_finite_inputs

/-- The rank-0 shape has one index: two of them agree on every axis, and there is no axis. -/
instance subsingleton_scalarIdx : Subsingleton S_.Idx := ⟨fun a b => funext fun d => d.elim0⟩

/-- The word `0x7F800000` encodes `+∞`. -/
theorem ofBits_inf : Ideal.ofBits .f32 0x7F800000#32 = (⊤ : EReal) := by
  simp [Ideal.ofBits, Ideal.ieee]

/-- On the extended reals `|x| < +∞` leaves only the real numbers: at `+∞` the maximum `max x (-x)` is `+∞` through
`x`, at `-∞` it is `+∞` through `-x`. -/
theorem isReal_of_abs_lt_top {x : EReal} (h : max x (-x) < ⊤) : IsReal x := by
  induction x using EReal.rec with
  | bot => simp at h
  | coe r => exact ⟨r, rfl⟩
  | top => simp at h

/-- One element of the comparison `|x| < +∞` that came out `1`: the element is a real number. -/
theorem isReal_of_cmp_one {x : Ideal .f32}
    (h : FloatOps.cmpf .olt (FloatOps.hostAbsf x) (Ideal.ofBits .f32 0x7F800000#32) = 1#1) : IsReal x := by
  rw [Ideal.hostAbsf_def, Ideal.absf_def, Ideal.cmpf_def, ofBits_inf] at h
  refine isReal_of_abs_lt_top ?_
  by_contra hn
  simp [Ideal.cmp, hn] at h

/-- `jnp.all(|x| < +∞)` over an array of any shape, the bound a broadcast scalar: when the reduction by `and` over
all axes is `1`, every entry is a real number. -/
theorem all_real {S : Shape} {axes : List (Fin S.rank)} (hb : S_.BroadcastsInDim S (![] : Fin 0 → Fin S.rank))
    (hr : S.ReducesTo axes S_) (h0 : 0 < S_.numel) (x : FVec Ideal S .f32)
    (h : Host.reduce IntOp.andi (cmpf .olt (Host.absf x) (broadcastInDim S ![] hb (constant S_ .f32 0x7F800000#32)))
        (constantI S_ 1 1#1) hr h0 ix0 = 1#1) (i : S.Idx) : IsReal (x i) := by
  have e := Host.reduce_andi_all _ _ hr h0 ix0 h i
  exact isReal_of_cmp_one e

/-- The same for a scalar input: no broadcast, and a reduction across no axis. -/
theorem all_real_scalar (hr : S_.ReducesTo [] S_) (h0 : 0 < S_.numel) (x : FVec Ideal S_ .f32)
    (h : Host.reduce IntOp.andi (cmpf .olt (Host.absf x) (constant S_ .f32 0x7F800000#32))
        (constantI S_ 1 1#1) hr h0 ix0 = 1#1) (i : S_.Idx) : IsReal (x i) := by
  have e := Host.reduce_andi_all _ _ hr h0 ix0 h i
  exact isReal_of_cmp_one e

/-- An elementwise `and` of one-bit arrays that reads `1` at an index: both operands read `1` there. -/
theorem andi_one {s : Shape} {a b : IVec s 1} {i : s.Idx} (h : andi a b i = 1#1) : a i = 1#1 ∧ b i = 1#1 :=
  IntOp.andi_eq_one.1 h

/-- Every entry of every input is a real number when the precondition holds of them. -/
theorem real_of_pre (x0 : FVec Ideal S500000x256 .f32) (x1 : FVec Ideal S64x256 .f32) (x2 : FVec Ideal S64 .f32)
    (x3 : FVec Ideal S64x64 .f32) (x4 : FVec Ideal S64 .f32) (x5 : FVec Ideal S1x64 .f32) (x6 : FVec Ideal S1 .f32)
    (x7 x8 : FVec Ideal S_ .f32)
    (h : Cert.Pre_finite_inputs.fn (F := Ideal) x0 x1 x2 x3 x4 x5 x6 x7 x8 = fun _ => 1#1) :
    (∀ i, IsReal (x0 i)) ∧ (∀ i, IsReal (x1 i)) ∧ (∀ i, IsReal (x2 i)) ∧ (∀ i, IsReal (x3 i)) ∧ (∀ i, IsReal (x4 i))
      ∧ (∀ i, IsReal (x5 i)) ∧ (∀ i, IsReal (x6 i)) ∧ (∀ i, IsReal (x7 i)) ∧ (∀ i, IsReal (x8 i)) := by
  -- The predicate's one result element is `1`; it is the conjunction, by `and`, of the nine inputs' `jnp.all`s.
  have h0 := congrFun h ix0
  dsimp only [Cert.Pre_finite_inputs.fn, fn_part1, fn_part2] at h0
  -- The conjunction is nested to the left: peel the last conjunct off, eight times.
  obtain ⟨h07, e8⟩ := andi_one h0
  obtain ⟨h06, e7⟩ := andi_one h07
  obtain ⟨h05, e6⟩ := andi_one h06
  obtain ⟨h04, e5⟩ := andi_one h05
  obtain ⟨h03, e4⟩ := andi_one h04
  obtain ⟨h02, e3⟩ := andi_one h03
  obtain ⟨h01, e2⟩ := andi_one h02
  obtain ⟨e0, e1⟩ := andi_one h01
  -- Each conjunct is one input's `jnp.all(|x| < +∞)`.
  exact ⟨all_real _ _ _ x0 e0, all_real _ _ _ x1 e1, all_real _ _ _ x2 e2, all_real _ _ _ x3 e3, all_real _ _ _ x4 e4,
    all_real _ _ _ x5 e5, all_real _ _ _ x6 e6, all_real_scalar _ _ x7 e7, all_real_scalar _ _ x8 e8⟩

end Cert.Finite

end
-- ==== Proof.KernelBody.lean ====
/-
  One grid point of the kernel, read at an index: the staged block of the output (shape [1, 1, 2000]) holds at
  (0, 0, p) the perceptron's output for row p of the staged block of x — three contractions, each followed by its bias,
  the first two by relu / divide / round / clip — as ONE term of the loaded blocks (`Cert.QMlp.kerRow`).
-/
import proofs.«407092_j9895604650610_3_alg».proof.Proof.Gen.KernelIdeal.Frame
import proofs.«407092_j9895604650610_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx Cert.QMlp

/-- The zero offsets of a rank-2 rectangle, as a constant function. -/
private theorem hz2 : (![0, 0] : Fin 2 → Nat) = fun _ => 0 := funext fun a => by fin_cases a <;> rfl
/-- The zero offsets of a rank-3 rectangle, as a constant function. -/
private theorem hz3 : (![0, 0, 0] : Fin 3 → Nat) = fun _ => 0 := funext fun a => by fin_cases a <;> rfl

/-! ## The three contractions as plain sums -/

/-! ### The contraction `[2000, 256] × [256, 64]`: its operand indices, axis by axis -/

/-- The left operand's row is the result's row. -/
theorem lhs1_0 (i : S2000x64.Idx) (q : dot_S2000x256_S256x64_S2000x64_1_0_0_1_n_n.contr.Idx) :
    (dot_S2000x256_S256x64_S2000x64_1_0_0_1_n_n.lhsIdx i q 0).val = (i 0).val := by
  unfold DotDims.lhsIdx
  rw [dif_neg (show ¬(0 : Fin S2000x256.rank) ∈ dot_S2000x256_S256x64_S2000x64_1_0_0_1_n_n.lhsBatch by decide), dif_pos (show (0 : Fin S2000x256.rank) ∈ dot_S2000x256_S256x64_S2000x64_1_0_0_1_n_n.lhsNonContracting by decide)]
  rfl
/-- The left operand's column is the contracted coordinate. -/
theorem lhs1_1 (i : S2000x64.Idx) (q : dot_S2000x256_S256x64_S2000x64_1_0_0_1_n_n.contr.Idx) :
    (dot_S2000x256_S256x64_S2000x64_1_0_0_1_n_n.lhsIdx i q 1).val = (q ⟨0, by decide⟩).val :=
  dot_S2000x256_S256x64_S2000x64_1_0_0_1_n_n.lhsIdx_val_of_single rfl i q
/-- The right operand's row is the contracted coordinate. -/
theorem rhs1_0 (i : S2000x64.Idx) (q : dot_S2000x256_S256x64_S2000x64_1_0_0_1_n_n.contr.Idx) :
    (dot_S2000x256_S256x64_S2000x64_1_0_0_1_n_n.rhsIdx i q 0).val = (q ⟨0, by decide⟩).val :=
  dot_S2000x256_S256x64_S2000x64_1_0_0_1_n_n.rhsIdx_val_of_single rfl i q
/-- The right operand's column is the result's column. -/
theorem rhs1_1 (i : S2000x64.Idx) (q : dot_S2000x256_S256x64_S2000x64_1_0_0_1_n_n.contr.Idx) :
    (dot_S2000x256_S256x64_S2000x64_1_0_0_1_n_n.rhsIdx i q 1).val = (i 1).val := by
  unfold DotDims.rhsIdx
  rw [dif_neg (show ¬(1 : Fin S256x64.rank) ∈ dot_S2000x256_S256x64_S2000x64_1_0_0_1_n_n.rhsBatch by decide), dif_pos (show (1 : Fin S256x64.rank) ∈ dot_S2000x256_S256x64_S2000x64_1_0_0_1_n_n.rhsNonContracting by decide)]
  rfl

/-- Onto the zero accumulator the product at `(p, j)` is the plain sum over the contracted axis. -/
theorem matmul1_apply {φ₁ φ₂ : FTy} (prec : Option ContractPrecision) (l : FVec Ideal S2000x256 φ₁) (r : FVec Ideal S256x64 φ₂)
    (p : Fin 2000) (j : Fin 64) :
    matmul (F := Ideal) dot_S2000x256_S256x64_S2000x64_1_0_0_1_n_n prec l r (constant (F := Ideal) S2000x64 .f32 0x00000000#32) (ix2 p j)
      = ∑ k : Fin 256, l (ix2 p k) * r (ix2 k j) := by
  refine (Ideal.matmul_constant_zero_apply dot_S2000x256_S256x64_S2000x64_1_0_0_1_n_n prec l r (ix2 p j)).trans ?_
  rw [← Equiv.sum_comp (ValueIdx.contrEquiv1 dot_S2000x256_S256x64_S2000x64_1_0_0_1_n_n 256 rfl rfl).symm]
  refine Finset.sum_congr rfl fun k _ => ?_
  have hk := ValueIdx.contrEquiv1_symm_val dot_S2000x256_S256x64_S2000x64_1_0_0_1_n_n 256 rfl rfl k
  have el : dot_S2000x256_S256x64_S2000x64_1_0_0_1_n_n.lhsIdx (ix2 p j) ((ValueIdx.contrEquiv1 dot_S2000x256_S256x64_S2000x64_1_0_0_1_n_n 256 rfl rfl).symm k) = ix2 p k := funext fun a => Fin.ext (by
    match a with
    | ⟨0, _⟩ => exact lhs1_0 _ _
    | ⟨1, _⟩ => exact (lhs1_1 _ _).trans hk)
  have er : dot_S2000x256_S256x64_S2000x64_1_0_0_1_n_n.rhsIdx (ix2 p j) ((ValueIdx.contrEquiv1 dot_S2000x256_S256x64_S2000x64_1_0_0_1_n_n 256 rfl rfl).symm k) = ix2 k j := funext fun a => Fin.ext (by
    match a with
    | ⟨0, _⟩ => exact (rhs1_0 _ _).trans hk
    | ⟨1, _⟩ => exact rhs1_1 _ _)
  rw [el, er]

/-! ### The contraction `[2000, 64] × [64, 64]`: its operand indices, axis by axis -/

/-- The left operand's row is the result's row. -/
theorem lhs2_0 (i : S2000x64.Idx) (q : dot_S2000x64_S64x64_S2000x64_1_0_0_1_n_n.contr.Idx) :
    (dot_S2000x64_S64x64_S2000x64_1_0_0_1_n_n.lhsIdx i q 0).val = (i 0).val := by
  unfold DotDims.lhsIdx
  rw [dif_neg (show ¬(0 : Fin S2000x64.rank) ∈ dot_S2000x64_S64x64_S2000x64_1_0_0_1_n_n.lhsBatch by decide), dif_pos (show (0 : Fin S2000x64.rank) ∈ dot_S2000x64_S64x64_S2000x64_1_0_0_1_n_n.lhsNonContracting by decide)]
  rfl
/-- The left operand's column is the contracted coordinate. -/
theorem lhs2_1 (i : S2000x64.Idx) (q : dot_S2000x64_S64x64_S2000x64_1_0_0_1_n_n.contr.Idx) :
    (dot_S2000x64_S64x64_S2000x64_1_0_0_1_n_n.lhsIdx i q 1).val = (q ⟨0, by decide⟩).val :=
  dot_S2000x64_S64x64_S2000x64_1_0_0_1_n_n.lhsIdx_val_of_single rfl i q
/-- The right operand's row is the contracted coordinate. -/
theorem rhs2_0 (i : S2000x64.Idx) (q : dot_S2000x64_S64x64_S2000x64_1_0_0_1_n_n.contr.Idx) :
    (dot_S2000x64_S64x64_S2000x64_1_0_0_1_n_n.rhsIdx i q 0).val = (q ⟨0, by decide⟩).val :=
  dot_S2000x64_S64x64_S2000x64_1_0_0_1_n_n.rhsIdx_val_of_single rfl i q
/-- The right operand's column is the result's column. -/
theorem rhs2_1 (i : S2000x64.Idx) (q : dot_S2000x64_S64x64_S2000x64_1_0_0_1_n_n.contr.Idx) :
    (dot_S2000x64_S64x64_S2000x64_1_0_0_1_n_n.rhsIdx i q 1).val = (i 1).val := by
  unfold DotDims.rhsIdx
  rw [dif_neg (show ¬(1 : Fin S64x64.rank) ∈ dot_S2000x64_S64x64_S2000x64_1_0_0_1_n_n.rhsBatch by decide), dif_pos (show (1 : Fin S64x64.rank) ∈ dot_S2000x64_S64x64_S2000x64_1_0_0_1_n_n.rhsNonContracting by decide)]
  rfl

/-- Onto the zero accumulator the product at `(p, j)` is the plain sum over the contracted axis. -/
theorem matmul2_apply {φ₁ φ₂ : FTy} (prec : Option ContractPrecision) (l : FVec Ideal S2000x64 φ₁) (r : FVec Ideal S64x64 φ₂)
    (p : Fin 2000) (j : Fin 64) :
    matmul (F := Ideal) dot_S2000x64_S64x64_S2000x64_1_0_0_1_n_n prec l r (constant (F := Ideal) S2000x64 .f32 0x00000000#32) (ix2 p j)
      = ∑ k : Fin 64, l (ix2 p k) * r (ix2 k j) := by
  refine (Ideal.matmul_constant_zero_apply dot_S2000x64_S64x64_S2000x64_1_0_0_1_n_n prec l r (ix2 p j)).trans ?_
  rw [← Equiv.sum_comp (ValueIdx.contrEquiv1 dot_S2000x64_S64x64_S2000x64_1_0_0_1_n_n 64 rfl rfl).symm]
  refine Finset.sum_congr rfl fun k _ => ?_
  have hk := ValueIdx.contrEquiv1_symm_val dot_S2000x64_S64x64_S2000x64_1_0_0_1_n_n 64 rfl rfl k
  have el : dot_S2000x64_S64x64_S2000x64_1_0_0_1_n_n.lhsIdx (ix2 p j) ((ValueIdx.contrEquiv1 dot_S2000x64_S64x64_S2000x64_1_0_0_1_n_n 64 rfl rfl).symm k) = ix2 p k := funext fun a => Fin.ext (by
    match a with
    | ⟨0, _⟩ => exact lhs2_0 _ _
    | ⟨1, _⟩ => exact (lhs2_1 _ _).trans hk)
  have er : dot_S2000x64_S64x64_S2000x64_1_0_0_1_n_n.rhsIdx (ix2 p j) ((ValueIdx.contrEquiv1 dot_S2000x64_S64x64_S2000x64_1_0_0_1_n_n 64 rfl rfl).symm k) = ix2 k j := funext fun a => Fin.ext (by
    match a with
    | ⟨0, _⟩ => exact (rhs2_0 _ _).trans hk
    | ⟨1, _⟩ => exact rhs2_1 _ _)
  rw [el, er]

/-! ### The contraction `[2000, 64] × [64, 1]`: its operand indices, axis by axis -/

/-- The left operand's row is the result's row. -/
theorem lhs3_0 (i : S2000x1.Idx) (q : dot_S2000x64_S64x1_S2000x1_1_0_0_1_n_n.contr.Idx) :
    (dot_S2000x64_S64x1_S2000x1_1_0_0_1_n_n.lhsIdx i q 0).val = (i 0).val := by
  unfold DotDims.lhsIdx
  rw [dif_neg (show ¬(0 : Fin S2000x64.rank) ∈ dot_S2000x64_S64x1_S2000x1_1_0_0_1_n_n.lhsBatch by decide), dif_pos (show (0 : Fin S2000x64.rank) ∈ dot_S2000x64_S64x1_S2000x1_1_0_0_1_n_n.lhsNonContracting by decide)]
  rfl
/-- The left operand's column is the contracted coordinate. -/
theorem lhs3_1 (i : S2000x1.Idx) (q : dot_S2000x64_S64x1_S2000x1_1_0_0_1_n_n.contr.Idx) :
    (dot_S2000x64_S64x1_S2000x1_1_0_0_1_n_n.lhsIdx i q 1).val = (q ⟨0, by decide⟩).val :=
  dot_S2000x64_S64x1_S2000x1_1_0_0_1_n_n.lhsIdx_val_of_single rfl i q
/-- The right operand's row is the contracted coordinate. -/
theorem rhs3_0 (i : S2000x1.Idx) (q : dot_S2000x64_S64x1_S2000x1_1_0_0_1_n_n.contr.Idx) :
    (dot_S2000x64_S64x1_S2000x1_1_0_0_1_n_n.rhsIdx i q 0).val = (q ⟨0, by decide⟩).val :=
  dot_S2000x64_S64x1_S2000x1_1_0_0_1_n_n.rhsIdx_val_of_single rfl i q
/-- The right operand's column is the result's column. -/
theorem rhs3_1 (i : S2000x1.Idx) (q : dot_S2000x64_S64x1_S2000x1_1_0_0_1_n_n.contr.Idx) :
    (dot_S2000x64_S64x1_S2000x1_1_0_0_1_n_n.rhsIdx i q 1).val = (i 1).val := by
  unfold DotDims.rhsIdx
  rw [dif_neg (show ¬(1 : Fin S64x1.rank) ∈ dot_S2000x64_S64x1_S2000x1_1_0_0_1_n_n.rhsBatch by decide), dif_pos (show (1 : Fin S64x1.rank) ∈ dot_S2000x64_S64x1_S2000x1_1_0_0_1_n_n.rhsNonContracting by decide)]
  rfl

/-- Onto the zero accumulator the product at `(p, j)` is the plain sum over the contracted axis. -/
theorem matmul3_apply {φ₁ φ₂ : FTy} (prec : Option ContractPrecision) (l : FVec Ideal S2000x64 φ₁) (r : FVec Ideal S64x1 φ₂)
    (p : Fin 2000) (j : Fin 1) :
    matmul (F := Ideal) dot_S2000x64_S64x1_S2000x1_1_0_0_1_n_n prec l r (constant (F := Ideal) S2000x1 .f32 0x00000000#32) (ix2 p j)
      = ∑ k : Fin 64, l (ix2 p k) * r (ix2 k j) := by
  refine (Ideal.matmul_constant_zero_apply dot_S2000x64_S64x1_S2000x1_1_0_0_1_n_n prec l r (ix2 p j)).trans ?_
  rw [← Equiv.sum_comp (ValueIdx.contrEquiv1 dot_S2000x64_S64x1_S2000x1_1_0_0_1_n_n 64 rfl rfl).symm]
  refine Finset.sum_congr rfl fun k _ => ?_
  have hk := ValueIdx.contrEquiv1_symm_val dot_S2000x64_S64x1_S2000x1_1_0_0_1_n_n 64 rfl rfl k
  have el : dot_S2000x64_S64x1_S2000x1_1_0_0_1_n_n.lhsIdx (ix2 p j) ((ValueIdx.contrEquiv1 dot_S2000x64_S64x1_S2000x1_1_0_0_1_n_n 64 rfl rfl).symm k) = ix2 p k := funext fun a => Fin.ext (by
    match a with
    | ⟨0, _⟩ => exact lhs3_0 _ _
    | ⟨1, _⟩ => exact (lhs3_1 _ _).trans hk)
  have er : dot_S2000x64_S64x1_S2000x1_1_0_0_1_n_n.rhsIdx (ix2 p j) ((ValueIdx.contrEquiv1 dot_S2000x64_S64x1_S2000x1_1_0_0_1_n_n 64 rfl rfl).symm k) = ix2 k j := funext fun a => Fin.ext (by
    match a with
    | ⟨0, _⟩ => exact (rhs3_0 _ _).trans hk
    | ⟨1, _⟩ => exact rhs3_1 _ _)
  rw [el, er]

/-! ## The layers, entry by entry -/

/-- The first pre-activation at `(p, j)`: row `p` of the block against row `j` of the weights (the kernel multiplies
    by their transpose), plus the bias row's entry `j`. -/
theorem pre1_apply (x : FVec Ideal S2000x256 .f32) (w : FVec Ideal S64x256 .f32) (b : FVec Ideal S1x64 .f32)
    (p : Fin 2000) (j : Fin 64) :
    addf (matmul (F := Ideal) dot_S2000x256_S256x64_S2000x64_1_0_0_1_n_n (some .fp32) x
          (transpose S256x64 [1, 0] (shapeCast S64x256 w shapeCasts_S64x256_S64x256) transposes_S64x256_p1_0_S256x64)
          (constant (F := Ideal) S2000x64 .f32 0x00000000#32))
        (broadcastTo S2000x64 (shapeCast S1x64 b shapeCasts_S1x64_S1x64) broadcasts_S1x64_S2000x64) (ix2 p j)
      = dot (fun d => x (ix2 p d)) (fun d => w (ix2 j d)) + b (ix2 (0 : Fin 1) j) := by
  rw [shapeCast_self, shapeCast_self]
  refine (addf_apply _ _ _).trans (congrArg₂ (· + ·) ?_ ?_)
  · refine (matmul1_apply _ _ _ p j).trans ?_
    unfold dot
    exact Finset.sum_congr rfl fun k _ => congrArg (x (ix2 p k) * ·) (transpose_ix2_apply w _ k j)
  · exact broadcastTo_1b_ab_apply b _ p j

/-- The second pre-activation at `(p, k)`, likewise, from the first layer's codes. -/
theorem pre2_apply (c : FVec Ideal S2000x64 .f32) (w : FVec Ideal S64x64 .f32) (b : FVec Ideal S1x64 .f32)
    (p : Fin 2000) (k : Fin 64) :
    addf (matmul (F := Ideal) dot_S2000x64_S64x64_S2000x64_1_0_0_1_n_n (some .fp32) c
          (transpose S64x64 [1, 0] (shapeCast S64x64 w shapeCasts_S64x64_S64x64) transposes_S64x64_p1_0_S64x64)
          (constant (F := Ideal) S2000x64 .f32 0x00000000#32))
        (broadcastTo S2000x64 (shapeCast S1x64 b shapeCasts_S1x64_S1x64) broadcasts_S1x64_S2000x64) (ix2 p k)
      = dot (fun j => c (ix2 p j)) (fun j => w (ix2 k j)) + b (ix2 (0 : Fin 1) k) := by
  rw [shapeCast_self, shapeCast_self]
  refine (addf_apply _ _ _).trans (congrArg₂ (· + ·) ?_ ?_)
  · refine (matmul2_apply _ _ _ p k).trans ?_
    unfold dot
    exact Finset.sum_congr rfl fun j _ => congrArg (c (ix2 p j) * ·) (transpose_ix2_apply w _ j k)
  · exact broadcastTo_1b_ab_apply b _ p k

/-- Relu, division by the step and rounding, then the lower clip, at one entry. -/
theorem round_apply (h : FVec Ideal S2000x64 .f32) (a : EReal) (i : S2000x64.Idx) :
    maximumf (broadcast S2000x64 (Scalar.ofBits (F := Ideal) .f32 0x00000000#32))
        (roundeven (divf (maximumf h (broadcast S2000x64 (Scalar.ofBits (F := Ideal) .f32 0x00000000#32))) (broadcast S2000x64 a))) i
      = max c0 (rne (Ideal.div (max (h i) c0) a)) := rfl

/-- The upper clip on top of it is the 8-bit code. -/
theorem clip_apply (h : FVec Ideal S2000x64 .f32) (a : EReal) (i : S2000x64.Idx) :
    minimumf (broadcast S2000x64 (Scalar.ofBits (F := Ideal) .f32 0x437F0000#32))
        (maximumf (broadcast S2000x64 (Scalar.ofBits (F := Ideal) .f32 0x00000000#32))
          (roundeven (divf (maximumf h (broadcast S2000x64 (Scalar.ofBits (F := Ideal) .f32 0x00000000#32))) (broadcast S2000x64 a)))) i
      = qcode a (h i) := rfl

/-- The scalar a `[1, 1]` block holds. -/
theorem extract_apply (v : Vec Ideal S1x1 .f32) (h : ∀ a, (![0, 0] : Fin 2 → Nat) a < S1x1.size a) :
    extractAt ![0, 0] v h = v (ix2 (0 : Fin 1) (0 : Fin 1)) :=
  congrArg v (funext fun a => by fin_cases a <;> rfl)

/-! ## The two payloads at an index -/

/-- The second layer's rounded value before its upper clip (the stored payload applies that clip), at `(p, k)`. -/
theorem pay2_apply (v0 v2 : Vec Ideal S1x1 .f32) (v4 : Vec Ideal S2000x256 .f32) (v5 : Vec Ideal S64x256 .f32)
    (v9 : Vec Ideal S1x64 .f32) (v22 : Vec Ideal S64x64 .f32) (v26 : Vec Ideal S1x64 .f32) (p : Fin 2000) (k : Fin 64) :
    k0_pay2 (F := Ideal) v0 v2 v4 v5 v9 v22 v26 (ix2 p k)
      = max c0 (rne (Ideal.div (max (dot (fun j => qcode (v0 (ix2 (0 : Fin 1) (0 : Fin 1)))
            (dot (fun d => v4 (ix2 p d)) (fun d => v5 (ix2 j d)) + v9 (ix2 (0 : Fin 1) j))) (fun j => v22 (ix2 k j))
          + v26 (ix2 (0 : Fin 1) k)) c0) (v2 (ix2 (0 : Fin 1) (0 : Fin 1))))) := by
  unfold k0_pay2
  refine (round_apply _ _ _).trans ?_
  rw [extract_apply v2]
  refine congrArg (fun t => max c0 (rne (Ideal.div (max t c0) (v2 (ix2 (0 : Fin 1) (0 : Fin 1)))))) ?_
  refine (pre2_apply _ v22 v26 p k).trans ?_
  refine congrArg (fun f => dot f (fun j => v22 (ix2 k j)) + v26 (ix2 (0 : Fin 1) k)) (funext fun j => ?_)
  refine (clip_apply _ _ _).trans ?_
  rw [extract_apply v0]
  exact congrArg (qcode (v0 (ix2 (0 : Fin 1) (0 : Fin 1)))) (pre1_apply v4 v5 v9 p j)

/-- The stored block at `(0, 0, p)`: the clipped codes of row `p` against the last weights' row, plus the last bias;
    the result column is laid along the lanes by a transpose and a unit axis is put in front. -/
theorem pay1_apply (c : EReal) (v36 : FVec Ideal S2000x64 .f32) (v40 : Vec Ideal S1x64 .f32) (v45 : Vec Ideal S1x1 .f32)
    (p : Fin 2000) :
    k0_pay1 (F := Ideal) c v36 v40 v45 (ix3 (0 : Fin 1) (0 : Fin 1) p)
      = dot (fun k => min c (v36 (ix2 p k))) (fun k => v40 (ix2 (0 : Fin 1) k)) + v45 (ix2 (0 : Fin 1) (0 : Fin 1)) := by
  unfold k0_pay1
  refine (shapeCast_ab_1ab_apply _ _ (0 : Fin 1) (0 : Fin 1) p).trans ?_
  refine (transpose_ix2_apply _ _ (0 : Fin 1) p).trans ?_
  refine (addf_apply _ _ _).trans (congrArg₂ (· + ·) ?_ ?_)
  · refine (matmul3_apply none _ _ p (0 : Fin 1)).trans ?_
    unfold dot
    refine Finset.sum_congr rfl fun k _ => congrArg (min c (v36 (ix2 p k)) * ·) ?_
    refine (transpose_ix2_apply _ _ k (0 : Fin 1)).trans ?_
    exact congrFun (shapeCast_self v40 _) (ix2 (0 : Fin 1) k)
  · refine (broadcastTo_1b_ab_apply _ _ p (0 : Fin 1)).trans ?_
    exact congrFun (shapeCast_self v45 _) (ix2 (0 : Fin 1) (0 : Fin 1))

/-- What the body leaves in the output's staging buffer, at lane `p`, from the blocks it loaded. -/
theorem out_apply (x0 : Vec Ideal S2000x256 .f32) (x1 : Vec Ideal S64x256 .f32) (x2 : Vec Ideal S1x64 .f32)
    (x3 : Vec Ideal S64x64 .f32) (x4 : Vec Ideal S1x64 .f32) (x5 : Vec Ideal S1x64 .f32) (x6 x7 x8 : Vec Ideal S1x1 .f32)
    (p : Fin 2000) :
    out0_9 (F := Ideal) x0 x1 x2 x3 x4 x5 x6 x7 x8 (ix3 (0 : Fin 1) (0 : Fin 1) p)
      = kerRow (fun d => x0 (ix2 p d)) (fun j d => x1 (ix2 j d)) (fun j => x2 (ix2 (0 : Fin 1) j))
          (fun k j => x3 (ix2 k j)) (fun k => x4 (ix2 (0 : Fin 1) k)) (fun k => x5 (ix2 (0 : Fin 1) k))
          (x6 (ix2 (0 : Fin 1) (0 : Fin 1))) (x7 (ix2 (0 : Fin 1) (0 : Fin 1))) (x8 (ix2 (0 : Fin 1) (0 : Fin 1))) := by
  unfold out0_9
  rw [View.canon_unit_zero hz3]
  simp only [View.ld_unit_zero (S := S1x1) hz2, View.ld_unit_zero (S := S2000x256) hz2, View.ld_unit_zero (S := S64x256) hz2,
    View.ld_unit_zero (S := S1x64) hz2, View.ld_unit_zero (S := S64x64) hz2]
  refine (pay1_apply _ _ x5 x6 p).trans ?_
  unfold kerRow
  refine congrArg (fun f => dot f (fun k => x5 (ix2 (0 : Fin 1) k)) + x6 (ix2 (0 : Fin 1) (0 : Fin 1))) (funext fun k => ?_)
  rw [pay2_apply]
  rfl

end Cert.KernelIdeal.Body

end
-- ==== Proof.KernelHost.lean ====
/-
  The arrays the kernel's region finds when it is entered: the host lines before it quantise the three weight tensors
  (each entry `wq` at the tensor's own scale), fold the activation steps into the second and third of them
  (`a₁ · W₂q`, `a₂ · W₃q`), and re-lay the biases and the steps as rows and 1 × 1 tensors. Each is read here at an index,
  as a function of the argument arrays as launched.
-/
import proofs.«407092_j9895604650610_3_alg».proof.Proof.Gen.KernelIdeal.Frame
import proofs.«407092_j9895604650610_3_alg».proof.Proof.Spec
import Idealize.ShloMosaic.Lib.ValueIdx
import Idealize.ShloMosaic.Lib.ValueLayout
import Idealize.ShloMosaic.Lib.Pipeline.Value
import Idealize.ShloMosaic.Lib.StableHlo.Run
import Idealize.ShloMosaic.Lib.IdealHost

noncomputable section

namespace Cert.KernelIdeal.HostArrays

open Cert.KernelIdeal Cert.KernelIdeal.Gen Idealize.ShloMosaic Idealize.ShloMosaic.TcCoe Idealize.SL.Sem Idealize.ShloMosaic.ValueIdx Cert.QMlp

/-! ## One weight tensor through the host's eight operations

`W + (clip (round (W / s)) · s − W)`, the clip to `[−128, 127]`, with the scale `s` a scalar tensor spread over the
tensor's shape: as an array, and read at an index. -/

/-- The quantised tensor as the host computes it from a tensor `W` and a scalar tensor `s`. -/
def staged {a b : Nat} (hb : (⟨0, ![]⟩ : Shape).BroadcastsInDim ⟨2, ![a, b]⟩ (![] : Fin 0 → Fin 2))
    (s : FVec Ideal ⟨0, ![]⟩ .f32) (W : FVec Ideal ⟨2, ![a, b]⟩ .f32) : FVec Ideal ⟨2, ![a, b]⟩ .f32 :=
  addf W (subf (mulf
    (minimumf (broadcastInDim ⟨2, ![a, b]⟩ ![] hb (constant (F := Ideal) ⟨0, ![]⟩ .f32 0x42FE0000#32))
      (maximumf (broadcastInDim ⟨2, ![a, b]⟩ ![] hb (constant (F := Ideal) ⟨0, ![]⟩ .f32 0xC3000000#32))
        (Host.roundeven (Host.divf W (broadcastInDim ⟨2, ![a, b]⟩ ![] hb s)))))
    (broadcastInDim ⟨2, ![a, b]⟩ ![] hb s)) W)

/-- At an index it is `wq` of the entry there, at the scalar. -/
theorem staged_apply {a b : Nat} (hb : (⟨0, ![]⟩ : Shape).BroadcastsInDim ⟨2, ![a, b]⟩ (![] : Fin 0 → Fin 2))
    (s : FVec Ideal ⟨0, ![]⟩ .f32) (W : FVec Ideal ⟨2, ![a, b]⟩ .f32) (i : (⟨2, ![a, b]⟩ : Shape).Idx) :
    staged hb s W i = wq (s ix0) (W i) := by
  -- every operation is entry by entry; a spread scalar reads the scalar
  show W i + (min (broadcastInDim ⟨2, ![a, b]⟩ ![] hb (constant (F := Ideal) ⟨0, ![]⟩ .f32 0x42FE0000#32) i)
      (max (broadcastInDim ⟨2, ![a, b]⟩ ![] hb (constant (F := Ideal) ⟨0, ![]⟩ .f32 0xC3000000#32) i)
        (Ideal.liftRound Ideal.roundHalfEven (Ideal.div (W i) (broadcastInDim ⟨2, ![a, b]⟩ ![] hb s i))))
      * broadcastInDim ⟨2, ![a, b]⟩ ![] hb s i - W i) = _
  rw [broadcastInDim_scalar_apply hb (constant (F := Ideal) ⟨0, ![]⟩ .f32 0x42FE0000#32) i,
    broadcastInDim_scalar_apply hb (constant (F := Ideal) ⟨0, ![]⟩ .f32 0xC3000000#32) i,
    broadcastInDim_scalar_apply hb s i]
  rfl

/-- A spread scalar `t` times the quantised tensor, at an index: `t · wq`. -/
theorem folded_apply {a b : Nat} (hb : (⟨0, ![]⟩ : Shape).BroadcastsInDim ⟨2, ![a, b]⟩ (![] : Fin 0 → Fin 2))
    (t s : FVec Ideal ⟨0, ![]⟩ .f32) (W : FVec Ideal ⟨2, ![a, b]⟩ .f32) (i : (⟨2, ![a, b]⟩ : Shape).Idx) :
    mulf (broadcastInDim ⟨2, ![a, b]⟩ ![] hb t) (staged hb s W) i = t ix0 * wq (s ix0) (W i) := by
  show broadcastInDim ⟨2, ![a, b]⟩ ![] hb t i * staged hb s W i = _
  rw [broadcastInDim_scalar_apply hb t i, staged_apply]

/-! ## The re-laid arrays -/

/-- A scalar tensor laid as a 1 × 1 tensor reads the scalar: both positions are the only one there is. -/
theorem shapeCast_scalar_11 {α : Type} (x : (⟨0, ![]⟩ : Shape).Idx → α)
    (h : (⟨0, ![]⟩ : Shape).ShapeCasts ⟨2, ![1, 1]⟩) :
    shapeCast ⟨2, ![1, 1]⟩ x h (ix2 (0 : Fin 1) (0 : Fin 1)) = x ix0 :=
  shapeCast_apply x h _ _ (by
    rw [Shape.rowMajor_val_two]
    exact Shape.rowMajorPi_zero _ _)

variable (m : (ℓ : Loc nD τ sig) → Buf (Elt Ideal) ℓ)

/-- The activation steps as launched. -/
abbrev step1 (c : Dev nD) : EReal := (m ((c : Thread nD τ).loc main_arg7) : S_.Idx → EReal) ix0
abbrev step2 (c : Dev nD) : EReal := (m ((c : Thread nD τ).loc main_arg8) : S_.Idx → EReal) ix0

/-- Exposes, for a goal `V m c r = …`, the term the host lines before the region compute for `r`. -/
local macro "host_term" : tactic =>
  `(tactic| (dsimp only [Gen.V, Gen.V0]
             simp only [Gen.hostOps0, Gen.hostOps0_1, Gen.hostOps0_2, Gen.hostOps0_3, Gen.hostOps0_4, Gen.hostOps0_5,
               Gen.hostOps0_6, Gen.hostOps0_7, Gen.hostOps0_8, Gen.hostOps0_9, Gen.hostOps0_10, Gen.hostOps0_11,
               Gen.hostOps0_12, List.flatten_cons, List.flatten_nil, List.append_nil, List.cons_append, List.nil_append]
             after_results_simp))

/-- The first layer's weights as staged: `W₁` quantised. -/
theorem V_W1 (c : Dev nD) (j : Fin 64) (d : Fin 256) :
    V m c main_v18 (ix2 j d)
      = wqAt (a := 64) (b := 256) reducesTo_S64x256_S_d0_1 h_S_ bcast_S_S_ (m ((c : Thread nD τ).loc main_arg1)) j d := by
  have e : (V m c main_v18 : S64x256.Idx → EReal)
      = staged bcast_S_S64x256 (scaleVec reducesTo_S64x256_S_d0_1 h_S_ bcast_S_S_ (m ((c : Thread nD τ).loc main_arg1)))
          (m ((c : Thread nD τ).loc main_arg1)) := by
    host_term
    rfl
  exact (congrFun e (ix2 j d)).trans (staged_apply _ _ _ _)

/-- The first bias as a row. -/
theorem V_b1 (c : Dev nD) (j : Fin 64) :
    V m c main_v63 (ix2 (0 : Fin 1) j) = m ((c : Thread nD τ).loc main_arg2) (ix1 j) := by
  have e : (V m c main_v63 : S1x64.Idx → EReal)
      = shapeCast S1x64 (m ((c : Thread nD τ).loc main_arg2)) shapeCasts_S64_S1x64 := by
    host_term
    rfl
  exact (congrFun e (ix2 (0 : Fin 1) j)).trans (shapeCast_a_1a_apply _ _ _ _)

/-- The second layer's weights as staged: `a₁ · W₂q`. -/
theorem V_W2f (c : Dev nD) (k j : Fin 64) :
    V m c main_v58 (ix2 k j)
      = step1 m c
        * wqAt (a := 64) (b := 64) reducesTo_S64x64_S_d0_1 h_S_ bcast_S_S_ (m ((c : Thread nD τ).loc main_arg3)) k j := by
  have e : (V m c main_v58 : S64x64.Idx → EReal)
      = mulf (broadcastInDim (s := S_) S64x64 ![] bcast_S_S64x64 (m ((c : Thread nD τ).loc main_arg7)))
          (staged bcast_S_S64x64 (scaleVec reducesTo_S64x64_S_d0_1 h_S_ bcast_S_S_ (m ((c : Thread nD τ).loc main_arg3)))
            (m ((c : Thread nD τ).loc main_arg3))) := by
    host_term
    rfl
  exact (congrFun e (ix2 k j)).trans (folded_apply _ _ _ _ _)

/-- The second bias as a row. -/
theorem V_b2 (c : Dev nD) (k : Fin 64) :
    V m c main_v64 (ix2 (0 : Fin 1) k) = m ((c : Thread nD τ).loc main_arg4) (ix1 k) := by
  have e : (V m c main_v64 : S1x64.Idx → EReal)
      = shapeCast S1x64 (m ((c : Thread nD τ).loc main_arg4)) shapeCasts_S64_S1x64 := by
    host_term
    rfl
  exact (congrFun e (ix2 (0 : Fin 1) k)).trans (shapeCast_a_1a_apply _ _ _ _)

/-- The output layer's weights as staged: `a₂ · W₃q`. -/
theorem V_W3f (c : Dev nD) (k : Fin 64) :
    V m c main_v60 (ix2 (0 : Fin 1) k)
      = step2 m c
        * wqAt (a := 1) (b := 64) reducesTo_S1x64_S_d0_1 h_S_ bcast_S_S_ (m ((c : Thread nD τ).loc main_arg5)) 0 k := by
  have e : (V m c main_v60 : S1x64.Idx → EReal)
      = mulf (broadcastInDim (s := S_) S1x64 ![] bcast_S_S1x64 (m ((c : Thread nD τ).loc main_arg8)))
          (staged bcast_S_S1x64 (scaleVec reducesTo_S1x64_S_d0_1 h_S_ bcast_S_S_ (m ((c : Thread nD τ).loc main_arg5)))
            (m ((c : Thread nD τ).loc main_arg5))) := by
    host_term
    rfl
  exact (congrFun e (ix2 (0 : Fin 1) k)).trans (folded_apply _ _ _ _ _)

/-- The output bias as a 1 × 1 tensor. -/
theorem V_b3 (c : Dev nD) :
    V m c main_v65 (ix2 (0 : Fin 1) (0 : Fin 1)) = m ((c : Thread nD τ).loc main_arg6) (ix1 (0 : Fin 1)) := by
  have e : (V m c main_v65 : S1x1.Idx → EReal)
      = shapeCast S1x1 (m ((c : Thread nD τ).loc main_arg6)) shapeCasts_S1_S1x1 := by
    host_term
    rfl
  exact (congrFun e (ix2 (0 : Fin 1) (0 : Fin 1))).trans (shapeCast_a_1a_apply _ _ _ _)

/-- The first activation step as a 1 × 1 tensor. -/
theorem V_a1 (c : Dev nD) :
    V m c main_v61 (ix2 (0 : Fin 1) (0 : Fin 1)) = step1 m c := by
  have e : (V m c main_v61 : S1x1.Idx → EReal)
      = shapeCast S1x1 (m ((c : Thread nD τ).loc main_arg7)) shapeCasts_S_S1x1 := by
    host_term
    rfl
  exact (congrFun e (ix2 (0 : Fin 1) (0 : Fin 1))).trans (shapeCast_scalar_11 _ _)

/-- The second activation step as a 1 × 1 tensor. -/
theorem V_a2 (c : Dev nD) :
    V m c main_v62 (ix2 (0 : Fin 1) (0 : Fin 1)) = step2 m c := by
  have e : (V m c main_v62 : S1x1.Idx → EReal)
      = shapeCast S1x1 (m ((c : Thread nD τ).loc main_arg8)) shapeCasts_S_S1x1 := by
    host_term
    rfl
  exact (congrFun e (ix2 (0 : Fin 1) (0 : Fin 1))).trans (shapeCast_scalar_11 _ _)

end Cert.KernelIdeal.HostArrays

end
-- ==== Proof.KernelValue.lean ====
/-
  The kernel's run, read: the array the region writes, shape [250, 1, 2000], holds at (t, 0, p) the perceptron's output
  for row `2000·t + p` of `x` — grid point `t` stages rows `2000·t … 2000·t + 1999` of `x` and the whole of every other
  operand, and writes block `t` of the array; the 250 blocks tile it — and the host line after the region re-lays it as
  [500000, 1], row-major, so that entry (r, 0) is the output for row `r`.
-/
import proofs.«407092_j9895604650610_3_alg».proof.Proof.Gen.KernelIdeal.Frame
import proofs.«407092_j9895604650610_3_alg».proof.Proof.Spec
import proofs.«407092_j9895604650610_3_alg».proof.Proof.KernelBody
import proofs.«407092_j9895604650610_3_alg».proof.Proof.KernelHost
import Idealize.ShloMosaic.Lib.Pipeline.Value
import Idealize.ShloMosaic.Lib.ValueIdx
import Idealize.ShloMosaic.Lib.StableHlo.Run
import Idealize.ShloMosaic.Lib.Tactic

noncomputable section

namespace Cert.KernelIdeal.KValue

open Cert.KernelIdeal Cert.KernelIdeal.Gen Idealize.ShloMosaic Idealize.ShloMosaic.TcCoe Idealize.SL.Sem
open Idealize.ShloMosaic.ValueIdx Cert.QMlp
open Idealize.ShloMosaic.Pipeline (Dat)

variable (m : (ℓ : Loc nD τ sig) → Buf (Elt Ideal) ℓ) (ρ : Dev nD → PrngReg)

/-- The perceptron's output for row `r` of `x`, of the argument arrays as launched: codes throughout, the activation
    steps folded into the second and third quantised weight tensors. -/
def rowOut (c : Dev nD) (r : Fin 500000) : EReal :=
  kerRow (fun d => m ((c : Thread nD τ).loc main_arg0) (ix2 r d))
    (fun j d => wqAt (a := 64) (b := 256) reducesTo_S64x256_S_d0_1 h_S_ bcast_S_S_ (m ((c : Thread nD τ).loc main_arg1)) j d)
    (fun j => m ((c : Thread nD τ).loc main_arg2) (ix1 j))
    (fun k j => HostArrays.step1 m c
      * wqAt (a := 64) (b := 64) reducesTo_S64x64_S_d0_1 h_S_ bcast_S_S_ (m ((c : Thread nD τ).loc main_arg3)) k j)
    (fun k => m ((c : Thread nD τ).loc main_arg4) (ix1 k))
    (fun k => HostArrays.step2 m c
      * wqAt (a := 1) (b := 64) reducesTo_S1x64_S_d0_1 h_S_ bcast_S_S_ (m ((c : Thread nD τ).loc main_arg5)) 0 k)
    (m ((c : Thread nD τ).loc main_arg6) (ix1 (0 : Fin 1)))
    (HostArrays.step1 m c) (HostArrays.step2 m c)

/-- The region's array: entry (t, 0, p) is the output for row `2000·t + p`. -/
def G (c : Dev nD) : S250x1x2000.Idx → EReal := fun i =>
  rowOut m c ⟨(i 0).val * 2000 + (i 2).val, by
    have h0 : (i 0).val < 250 := (i 0).isLt
    have h2 : (i 2).val < 2000 := (i 2).isLt
    omega⟩

/-! ## The printed index maps, decided over the grid -/

theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 3) = t.val ∧ win0_9.index t (1 : Fin 3) = 0 ∧ win0_9.index t (2 : Fin 3) = 0 :=
  (by decide +kernel : ∀ t : Fin grid0.N, _)

theorem t_lt (t : Fin cfg0.N) : t.val < 250 := Nat.lt_of_lt_of_eq t.isLt (N_0 : cfg0.N = 250)

/-! ## Each staged block, read at an index -/

/-- Point `t`'s block of `x` is rows `2000·t …` of it. -/
theorem blk0 (c : Dev nD) (t : Fin cfg0.N) (p : Fin 2000) (d : Fin 256) :
    (iblk m c 0 t : Vec Ideal S2000x256 .f32) (ix2 p d)
      = m ((c : Thread nD τ).loc main_arg0) (ix2 (⟨t.val * 2000 + p.val, by have := t_lt t; omega⟩ : Fin 500000) d) := by
  obtain ⟨e0, e1, -⟩ := idx_facts t
  unfold iblk
  rw [View.read_apply]
  show V m c main_arg0 _ = _
  rw [V_main_arg0]
  congr 1
  funext a
  apply Fin.ext
  match a with
  | ⟨0, _⟩ => show win0_0.index t (0 : Fin 2) * 2000 + 1 * p.val = t.val * 2000 + p.val; rw [e0]; omega
  | ⟨1, _⟩ => show win0_0.index t (1 : Fin 2) * 256 + 1 * d.val = d.val; rw [e1]; omega

theorem blk1 (c : Dev nD) (t : Fin cfg0.N) (j : Fin 64) (d : Fin 256) :
    (iblk m c 1 t : Vec Ideal S64x256 .f32) (ix2 j d)
      = wqAt (a := 64) (b := 256) reducesTo_S64x256_S_d0_1 h_S_ bcast_S_S_ (m ((c : Thread nD τ).loc main_arg1)) j d := by
  obtain ⟨-, -, e0, e1, -⟩ := idx_facts t
  unfold iblk
  rw [View.read_apply, ← HostArrays.V_W1 m c j d]
  show V m c main_v18 _ = V m c main_v18 _
  congr 1
  funext a
  apply Fin.ext
  match a with
  | ⟨0, _⟩ => show win0_1.index t (0 : Fin 2) * 64 + 1 * j.val = j.val; rw [e0]; omega
  | ⟨1, _⟩ => show win0_1.index t (1 : Fin 2) * 256 + 1 * d.val = d.val; rw [e1]; omega

theorem blk2 (c : Dev nD) (t : Fin cfg0.N) (j : Fin 64) :
    (iblk m c 2 t : Vec Ideal S1x64 .f32) (ix2 (0 : Fin 1) j) = m ((c : Thread nD τ).loc main_arg2) (ix1 j) := by
  obtain ⟨-, -, -, -, e0, e1, -⟩ := idx_facts t
  unfold iblk
  rw [View.read_apply, ← HostArrays.V_b1 m c j]
  show V m c main_v63 _ = V m c main_v63 _
  congr 1
  funext a
  apply Fin.ext
  match a with
  | ⟨0, _⟩ => show win0_2.index t (0 : Fin 2) * 1 + 1 * 0 = 0; rw [e0]
  | ⟨1, _⟩ => show win0_2.index t (1 : Fin 2) * 64 + 1 * j.val = j.val; rw [e1]; omega

theorem blk3 (c : Dev nD) (t : Fin cfg0.N) (k j : Fin 64) :
    (iblk m c 3 t : Vec Ideal S64x64 .f32) (ix2 k j)
      = HostArrays.step1 m c
        * wqAt (a := 64) (b := 64) reducesTo_S64x64_S_d0_1 h_S_ bcast_S_S_ (m ((c : Thread nD τ).loc main_arg3)) k j := by
  obtain ⟨-, -, -, -, -, -, e0, e1, -⟩ := idx_facts t
  unfold iblk
  rw [View.read_apply, ← HostArrays.V_W2f m c k j]
  show V m c main_v58 _ = V m c main_v58 _
  congr 1
  funext a
  apply Fin.ext
  match a with
  | ⟨0, _⟩ => show win0_3.index t (0 : Fin 2) * 64 + 1 * k.val = k.val; rw [e0]; omega
  | ⟨1, _⟩ => show win0_3.index t (1 : Fin 2) * 64 + 1 * j.val = j.val; rw [e1]; omega

theorem blk4 (c : Dev nD) (t : Fin cfg0.N) (k : Fin 64) :
    (iblk m c 4 t : Vec Ideal S1x64 .f32) (ix2 (0 : Fin 1) k) = m ((c : Thread nD τ).loc main_arg4) (ix1 k) := by
  obtain ⟨-, -, -, -, -, -, -, -, e0, e1, -⟩ := idx_facts t
  unfold iblk
  rw [View.read_apply, ← HostArrays.V_b2 m c k]
  show V m c main_v64 _ = V m c main_v64 _
  congr 1
  funext a
  apply Fin.ext
  match a with
  | ⟨0, _⟩ => show win0_4.index t (0 : Fin 2) * 1 + 1 * 0 = 0; rw [e0]
  | ⟨1, _⟩ => show win0_4.index t (1 : Fin 2) * 64 + 1 * k.val = k.val; rw [e1]; omega

theorem blk5 (c : Dev nD) (t : Fin cfg0.N) (k : Fin 64) :
    (iblk m c 5 t : Vec Ideal S1x64 .f32) (ix2 (0 : Fin 1) k)
      = HostArrays.step2 m c
        * wqAt (a := 1) (b := 64) reducesTo_S1x64_S_d0_1 h_S_ bcast_S_S_ (m ((c : Thread nD τ).loc main_arg5)) 0 k := by
  obtain ⟨-, -, -, -, -, -, -, -, -, -, e0, e1, -⟩ := idx_facts t
  unfold iblk
  rw [View.read_apply, ← HostArrays.V_W3f m c k]
  show V m c main_v60 _ = V m c main_v60 _
  congr 1
  funext a
  apply Fin.ext
  match a with
  | ⟨0, _⟩ => show win0_5.index t (0 : Fin 2) * 1 + 1 * 0 = 0; rw [e0]
  | ⟨1, _⟩ => show win0_5.index t (1 : Fin 2) * 64 + 1 * k.val = k.val; rw [e1]; omega

theorem blk6 (c : Dev nD) (t : Fin cfg0.N) :
    (iblk m c 6 t : Vec Ideal S1x1 .f32) (ix2 (0 : Fin 1) (0 : Fin 1)) = m ((c : Thread nD τ).loc main_arg6) (ix1 (0 : Fin 1)) := by
  obtain ⟨-, -, -, -, -, -, -, -, -, -, -, -, e0, e1, -⟩ := idx_facts t
  unfold iblk
  rw [View.read_apply, ← HostArrays.V_b3 m c]
  show V m c main_v65 _ = V m c main_v65 _
  congr 1
  funext a
  apply Fin.ext
  match a with
  | ⟨0, _⟩ => show win0_6.index t (0 : Fin 2) * 1 + 1 * 0 = 0; rw [e0]
  | ⟨1, _⟩ => show win0_6.index t (1 : Fin 2) * 1 + 1 * 0 = 0; rw [e1]

theorem blk7 (c : Dev nD) (t : Fin cfg0.N) :
    (iblk m c 7 t : Vec Ideal S1x1 .f32) (ix2 (0 : Fin 1) (0 : Fin 1)) = HostArrays.step1 m c := by
  obtain ⟨-, -, -, -, -, -, -, -, -, -, -, -, -, -, e0, e1, -⟩ := idx_facts t
  unfold iblk
  rw [View.read_apply, ← HostArrays.V_a1 m c]
  show V m c main_v61 _ = V m c main_v61 _
  congr 1
  funext a
  apply Fin.ext
  match a with
  | ⟨0, _⟩ => show win0_7.index t (0 : Fin 2) * 1 + 1 * 0 = 0; rw [e0]
  | ⟨1, _⟩ => show win0_7.index t (1 : Fin 2) * 1 + 1 * 0 = 0; rw [e1]

theorem blk8 (c : Dev nD) (t : Fin cfg0.N) :
    (iblk m c 8 t : Vec Ideal S1x1 .f32) (ix2 (0 : Fin 1) (0 : Fin 1)) = HostArrays.step2 m c := by
  obtain ⟨-, -, -, -, -, -, -, -, -, -, -, -, -, -, -, -, e0, e1, -⟩ := idx_facts t
  unfold iblk
  rw [View.read_apply, ← HostArrays.V_a2 m c]
  show V m c main_v62 _ = V m c main_v62 _
  congr 1
  funext a
  apply Fin.ext
  match a with
  | ⟨0, _⟩ => show win0_8.index t (0 : Fin 2) * 1 + 1 * 0 = 0; rw [e0]
  | ⟨1, _⟩ => show win0_8.index t (1 : Fin 2) * 1 + 1 * 0 = 0; rw [e1]

/-! ## What a point writes back, and the array after the run -/

/-- `kerRow` of entrywise equal data. -/
theorem kerRow_congr {x x' : Fin 256 → EReal} {W1 W1' : Fin 64 → Fin 256 → EReal} {b1 b1' : Fin 64 → EReal}
    {W2 W2' : Fin 64 → Fin 64 → EReal} {b2 b2' : Fin 64 → EReal} {W3 W3' : Fin 64 → EReal} {b3 b3' a1 a1' a2 a2' : EReal}
    (hx : ∀ d, x d = x' d) (hW1 : ∀ j d, W1 j d = W1' j d) (hb1 : ∀ j, b1 j = b1' j) (hW2 : ∀ k j, W2 k j = W2' k j)
    (hb2 : ∀ k, b2 k = b2' k) (hW3 : ∀ k, W3 k = W3' k) (hb3 : b3 = b3') (ha1 : a1 = a1') (ha2 : a2 = a2') :
    kerRow x W1 b1 W2 b2 W3 b3 a1 a2 = kerRow x' W1' b1' W2' b2' W3' b3' a1' a2' := by
  obtain rfl : x = x' := funext hx
  obtain rfl : W1 = W1' := funext fun j => funext (hW1 j)
  obtain rfl : b1 = b1' := funext hb1
  obtain rfl : W2 = W2' := funext fun k => funext (hW2 k)
  obtain rfl : b2 = b2' := funext hb2
  obtain rfl : W3 = W3' := funext hW3
  subst hb3 ha1 ha2
  rfl

/-- Lane `p` of what point `t` leaves in the output's staging buffer is the output for row `2000·t + p`. -/
theorem staged_apply (c : Dev nD) (t : Fin cfg0.N) (p : Fin 2000) :
    out0_9 (F := Ideal) (iblk m c 0 t) (iblk m c 1 t) (iblk m c 2 t) (iblk m c 3 t) (iblk m c 4 t) (iblk m c 5 t)
        (iblk m c 6 t) (iblk m c 7 t) (iblk m c 8 t) (ix3 (0 : Fin 1) (0 : Fin 1) p)
      = rowOut m c ⟨t.val * 2000 + p.val, by have := t_lt t; omega⟩ := by
  refine (Body.out_apply (iblk m c 0 t) (iblk m c 1 t) (iblk m c 2 t) (iblk m c 3 t) (iblk m c 4 t) (iblk m c 5 t)
    (iblk m c 6 t) (iblk m c 7 t) (iblk m c 8 t) p).trans ?_
  exact kerRow_congr (fun d => blk0 m c t p d) (fun j d => blk1 m c t j d) (fun j => blk2 m c t j)
    (fun k j => blk3 m c t k j) (fun k => blk4 m c t k) (fun k => blk5 m c t k) (blk6 m c t) (blk7 m c t) (blk8 m c t)

/-- Block `t` of the output array, index by index: (0, 0, p) of the block is (t, 0, p) of the array. -/
theorem emb9 (t : Fin cfg0.N) (p : Fin 2000) :
    ((cfg0.win 9).blk t).view.emb (ix3 (0 : Fin 1) (0 : Fin 1) p)
      = ix3 (⟨t.val, t_lt t⟩ : Fin 250) (0 : Fin 1) p := by
  obtain ⟨-, -, -, -, -, -, -, -, -, -, -, -, -, -, -, -, -, -, e0, e1, e2⟩ := idx_facts t
  funext a
  apply Fin.ext
  match a with
  | ⟨0, _⟩ => show win0_9.index t (0 : Fin 3) * 1 + 1 * 0 = t.val; rw [e0]; omega
  | ⟨1, _⟩ => show win0_9.index t (1 : Fin 3) * 1 + 1 * 0 = 0; rw [e1]
  | ⟨2, _⟩ => show win0_9.index t (2 : Fin 3) * 2000 + 1 * p.val = p.val; rw [e2]; omega

/-- WHAT POINT `t` WRITES BACK is block `t` of `G`. -/
theorem flushed_eq (c : Dev nD) (t : Fin cfg0.N) :
    (dats m 0 c).flushed 9 t = ((cfg0.win 9).blk t).view.read (Elt Ideal) (G m c) := by
  show (cfg0.win 9).cut (grid0.coords t) ((dats m 0 c).after 9 t) = _
  rw [after0_9]
  refine funext fun (y : S1x1x2000.Idx) => ?_
  have h0 : (y 0).val = 0 := by have h : (y 0).val < 1 := (y 0).isLt; omega
  have h1 : (y 1).val = 0 := by have h : (y 1).val < 1 := (y 1).isLt; omega
  obtain ⟨p, rfl⟩ : ∃ p : Fin 2000, y = ix3 (0 : Fin 1) (0 : Fin 1) p :=
    ⟨y 2, funext fun a => by
      match a with
      | ⟨0, _⟩ => exact Fin.ext h0
      | ⟨1, _⟩ => exact Fin.ext h1
      | ⟨2, _⟩ => rfl⟩
  show out0_9 (F := Ideal) (iblk m c 0 t) (iblk m c 1 t) (iblk m c 2 t) (iblk m c 3 t) (iblk m c 4 t) (iblk m c 5 t)
      (iblk m c 6 t) (iblk m c 7 t) (iblk m c 8 t) (ix3 (0 : Fin 1) (0 : Fin 1) p)
    = G m c (((cfg0.win 9).blk t).view.emb (ix3 (0 : Fin 1) (0 : Fin 1) p))
  rw [emb9]
  exact staged_apply m c t p

/-- The 250 blocks tile the array (index `i` is in block `i 0`), so the region's array ends holding `G`. -/
theorem final9 (c : Dev nD) : (dats m 0 c).arrAt 9 cfg0.N = G m c :=
  (dats m 0 c).arrAt_eq_of_cover 9 (G m c) (fun t _ => flushed_eq m c t) fun i => by
    have hi0 : (i 0).val < 250 := (i 0).isLt
    have hi1 : (i 1).val < 1 := (i 1).isLt
    have hi2 : (i 2).val < 2000 := (i 2).isLt
    have ht : (i 0).val < cfg0.N := Nat.lt_of_lt_of_eq hi0 (N_0 : cfg0.N = 250).symm
    obtain ⟨-, -, -, -, -, -, -, -, -, -, -, -, -, -, -, -, -, -, e0', e1, e2⟩ := idx_facts ⟨(i 0).val, ht⟩
    have e0 : win0_9.index ⟨(i 0).val, ht⟩ (0 : Fin 3) = (i 0).val := e0'
    refine ⟨⟨(i 0).val, ht⟩, flush0_9 _, ?_⟩
    show i ∈ ((View.whole main_v66).slice (win0_9.rect ⟨(i 0).val, ht⟩)).set
    rw [View.set_slice_whole, Rect.mem_set_unit]
    intro a
    match a with
    | ⟨0, _⟩ =>
      show win0_9.index ⟨(i 0).val, ht⟩ (0 : Fin 3) * 1 ≤ (i 0).val
        ∧ (i 0).val < win0_9.index ⟨(i 0).val, ht⟩ (0 : Fin 3) * 1 + 1
      rw [e0]; omega
    | ⟨1, _⟩ =>
      show win0_9.index ⟨(i 0).val, ht⟩ (1 : Fin 3) * 1 ≤ (i 1).val
        ∧ (i 1).val < win0_9.index ⟨(i 0).val, ht⟩ (1 : Fin 3) * 1 + 1
      rw [e1]; omega
    | ⟨2, _⟩ =>
      show win0_9.index ⟨(i 0).val, ht⟩ (2 : Fin 3) * 2000 ≤ (i 2).val
        ∧ (i 2).val < win0_9.index ⟨(i 0).val, ht⟩ (2 : Fin 3) * 2000 + 2000
      rw [e2]; omega

/-! ## The host line after the region, and the run -/

/-- The program's result: entry (r, 0) is the output for row `r`. -/
def result (c : Dev nD) : Buf (Elt Ideal) ((c : Thread nD τ).loc main_v67) :=
  fun i => rowOut m c ⟨(i 0).val, (i 0).isLt⟩

/-- The re-laying [250, 1, 2000] → [500000, 1] reads row `r` at (r / 2000, 0, r % 2000). -/
theorem tail_eq (c : Dev nD) :
    Pipeline.afterTail₀ cfgs (dats m) 0 (V0 m) [hostOps1] c main_v67 = result m c := by
  unfold Pipeline.afterTail₀
  show StableHlo.after hostOps1 _ (Proc.devRef .tc main_v67) = _
  after_results
  funext i
  have hi0 : (i 0).val < 500000 := (i 0).isLt
  have hi1 : (i 1).val < 1 := (i 1).isLt
  show shapeCast S500000x1 (Pipeline.withArrays spec0 c (V0 m c) (fun w => (dats m 0 c).arrAt w cfg0.N)
      (Proc.devRef .tc (Pipeline.arrRef spec0 9))) shapeCasts_S250x1x2000_S500000x1 i = result m c i
  rw [Pipeline.withArrays_arr spec0 launch0.win.arr_inj c _ _ 9, final9]
  refine (shapeCast_apply (G m c) shapeCasts_S250x1x2000_S500000x1 i
    (ix3 (⟨(i 0).val / 2000, by omega⟩ : Fin 250) (0 : Fin 1) (⟨(i 0).val % 2000, by omega⟩ : Fin 2000)) ?_).trans ?_
  · rw [Shape.rowMajor_val_three, Shape.rowMajor_val_two]
    show ((i 0).val / 2000 * 1 + 0) * 2000 + (i 0).val % 2000 = (i 0).val * 1 + (i 1).val
    omega
  · show rowOut m c ⟨(i 0).val / 2000 * 2000 + (i 0).val % 2000, _⟩ = rowOut m c ⟨(i 0).val, _⟩
    congr 1
    apply Fin.ext
    show (i 0).val / 2000 * 2000 + (i 0).val % 2000 = (i 0).val
    omega

/-- The run, read: the result array at `result`, the arguments unchanged. -/
theorem run : θ_run defs (onTc (τ := τ) (main (F := Ideal))) ⟨m, fun _ => 0, ρ⟩ fun r => ∀ c : Dev nD,
      r.2.mem ((c.tc : Thread nD τ).loc main_v67) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c =>
    ⟨((h c).2 main_v67 (Pipeline.mem_restRefs_of main_v67 (by decide) (by decide))).trans (tail_eq m c),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c))⟩)
    (run_main m ρ)

end Cert.KernelIdeal.KValue

end
-- ==== Proof.RefValue.lean ====
/-
  The reference, read at an index: row `i` of its result is the perceptron's output for row `i` of `x` with
  dequantised activations against the quantised weights (`Cert.QMlp.refRow`), by the generated one-operation-at-a-time
  reading of its run.

  The reading goes layer by layer.  A quantised weight tensor at an entry is `wqAt` of the raw tensor (its scale is the
  same term, operation for operation, as `scaleVec`).  A pre-activation at `(i, j)` is the dot product of row `i` of the
  previous activations with row `j` of the quantised weights (the transpose turns the contraction over the weights' first
  axis into one over their rows), plus the bias at `j`.  An activation is `deq` of the pre-activation at the layer's step.
-/
import proofs.«407092_j9895604650610_3_alg».proof.Proof.Gen.ReferenceIdeal.Read
import proofs.«407092_j9895604650610_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx Cert.QMlp

/-! ## The three scales are `scaleVec` -/

theorem scale1 (x1 : (⟨S64x256, .f32⟩ : BufTy).Contents (Elt Ideal)) :
    val_main_v10 (F := Ideal) x1 = scaleVec (a := 64) (b := 256) reducesTo_S64x256_S_d0_1 h_S_ bcast_S_S_ x1 := rfl

theorem scale2 (x3 : (⟨S64x64, .f32⟩ : BufTy).Contents (Elt Ideal)) :
    val_main_v43 (F := Ideal) x3 = scaleVec (a := 64) (b := 64) reducesTo_S64x64_S_d0_1 h_S_ bcast_S_S_ x3 := rfl

theorem scale3 (x5 : (⟨S1x64, .f32⟩ : BufTy).Contents (Elt Ideal)) :
    val_main_v76 (F := Ideal) x5 = scaleVec (a := 1) (b := 64) reducesTo_S1x64_S_d0_1 h_S_ bcast_S_S_ x5 := rfl

/-! ## The quantised weights, entry by entry -/

/-- `W1q = W1 + (clip (round (W1 / s)) · s - W1)` at `(j, d)`. -/
theorem w1q_apply (x1 : (⟨S64x256, .f32⟩ : BufTy).Contents (Elt Ideal)) (j : Fin 64) (d : Fin 256) :
    val_main_v18 (F := Ideal) x1 (ix2 j d)
      = wqAt (a := 64) (b := 256) reducesTo_S64x256_S_d0_1 h_S_ bcast_S_S_ x1 j d := by
  simp only [val_main_v18_apply, val_main_v17_apply, val_main_v16_apply, val_main_v15_apply, val_main_v14_apply,
    val_main_call1_v4_apply, val_main_call1_v3_apply, val_main_cst_5_apply, val_main_call1_v2_apply,
    val_main_call1_v1_apply, val_main_call1_v0_apply, val_main_cst_4_apply, val_main_v13_apply, val_main_v12_apply,
    val_main_v11_apply, scale1, Ideal.addf_def, Ideal.subf_def, Ideal.mulf_def, Ideal.maximumf_def, Ideal.minimumf_def,
    Ideal.hostDivf_def, Ideal.hostUnary_roundeven_def, Ideal.ofBits_def]
  rfl

/-- `W2q` at `(k, j)`. -/
theorem w2q_apply (x3 : (⟨S64x64, .f32⟩ : BufTy).Contents (Elt Ideal)) (k j : Fin 64) :
    val_main_v51 (F := Ideal) x3 (ix2 k j)
      = wqAt (a := 64) (b := 64) reducesTo_S64x64_S_d0_1 h_S_ bcast_S_S_ x3 k j := by
  simp only [val_main_v51_apply, val_main_v50_apply, val_main_v49_apply, val_main_v48_apply, val_main_v47_apply,
    val_main_call6_v4_apply, val_main_call6_v3_apply, val_main_cst_14_apply, val_main_call6_v2_apply,
    val_main_call6_v1_apply, val_main_call6_v0_apply, val_main_cst_13_apply, val_main_v46_apply, val_main_v45_apply,
    val_main_v44_apply, scale2, Ideal.addf_def, Ideal.subf_def, Ideal.mulf_def, Ideal.maximumf_def, Ideal.minimumf_def,
    Ideal.hostDivf_def, Ideal.hostUnary_roundeven_def, Ideal.ofBits_def]
  rfl

/-- `W3q` at `(0, k)`. -/
theorem w3q_apply (x5 : (⟨S1x64, .f32⟩ : BufTy).Contents (Elt Ideal)) (k : Fin 64) :
    val_main_v84 (F := Ideal) x5 (ix2 (0 : Fin 1) k)
      = wqAt (a := 1) (b := 64) reducesTo_S1x64_S_d0_1 h_S_ bcast_S_S_ x5 0 k := by
  simp only [val_main_v84_apply, val_main_v83_apply, val_main_v82_apply, val_main_v81_apply, val_main_v80_apply,
    val_main_call11_v4_apply, val_main_call11_v3_apply, val_main_cst_23_apply, val_main_call11_v2_apply,
    val_main_call11_v1_apply, val_main_call11_v0_apply, val_main_cst_22_apply, val_main_v79_apply, val_main_v78_apply,
    val_main_v77_apply, scale3, Ideal.addf_def, Ideal.subf_def, Ideal.mulf_def, Ideal.maximumf_def, Ideal.minimumf_def,
    Ideal.hostDivf_def, Ideal.hostUnary_roundeven_def, Ideal.ofBits_def]
  rfl

/-! ## The first layer -/

/-- The first pre-activation at `(i, j)`: row `i` of `x` against row `j` of `W1q`, plus `b1 j`. -/
theorem pre1_apply (x0 : (⟨S500000x256, .f32⟩ : BufTy).Contents (Elt Ideal)) (x1 : (⟨S64x256, .f32⟩ : BufTy).Contents (Elt Ideal))
    (x2 : (⟨S64, .f32⟩ : BufTy).Contents (Elt Ideal)) (i : Fin 500000) (j : Fin 64) :
    val_main_v23 (F := Ideal) x0 x1 x2 (ix2 i j)
      = dot (fun d => x0 (ix2 i d))
          (fun d => wqAt (a := 64) (b := 256) reducesTo_S64x256_S_d0_1 h_S_ bcast_S_S_ x1 j d) + x2 (ix1 j) := by
  rw [val_main_v23_apply, val_main_v20_apply, val_main_v22_apply, val_main_v21_apply, Ideal.addf_def]
  have eb : idx_main_v21 (idx_main_v22 (ix2 i j)) = ix1 j :=
    funext fun a => by match a with | ⟨0, _⟩ => rfl
  rw [eb]
  unfold dot
  refine congrArg₂ (· + ·) (Finset.sum_congr rfl fun d _ => ?_) rfl
  have el : lidx_main_v20 (ix2 i j) d = ix2 i d :=
    funext fun a => by match a with | ⟨0, _⟩ => rfl | ⟨1, _⟩ => rfl
  have er : idx_main_v19 (ridx_main_v20 (ix2 i j) d) = ix2 j d :=
    funext fun a => by match a with | ⟨0, _⟩ => rfl | ⟨1, _⟩ => rfl
  rw [val_main_v19_apply, el, er, w1q_apply]

/-- The first activation at `(i, j)` is `deq a1` of the pre-activation there. -/
theorem act1_apply (x0 : (⟨S500000x256, .f32⟩ : BufTy).Contents (Elt Ideal)) (x1 : (⟨S64x256, .f32⟩ : BufTy).Contents (Elt Ideal))
    (x2 : (⟨S64, .f32⟩ : BufTy).Contents (Elt Ideal)) (x7 : (⟨S_, .f32⟩ : BufTy).Contents (Elt Ideal))
    (i : Fin 500000) (j : Fin 64) :
    val_main_v32 (F := Ideal) x0 x1 x2 x7 (ix2 i j)
      = deq (x7 ix0) (val_main_v23 (F := Ideal) x0 x1 x2 (ix2 i j)) := by
  simp only [val_main_v32_apply, val_main_v31_apply, val_main_v30_apply, val_main_v29_apply, val_main_v28_apply,
    val_main_call4_v4_apply, val_main_call4_v3_apply, val_main_cst_7_apply, val_main_call4_v2_apply,
    val_main_call4_v1_apply, val_main_call4_v0_apply, val_main_cst_6_apply, val_main_v27_apply, val_main_v26_apply,
    val_main_v25_apply, val_main_v24_apply, val_main_call2_v0_apply, val_main_call2_cst_apply,
    Ideal.addf_def, Ideal.subf_def, Ideal.mulf_def, Ideal.maximumf_def, Ideal.minimumf_def,
    Ideal.hostDivf_def, Ideal.hostUnary_roundeven_def, Ideal.ofBits_def]
  rfl

/-! ## The second layer -/

/-- The second pre-activation at `(i, k)`: row `i` of the first activations against row `k` of `W2q`, plus `b2 k`. -/
theorem pre2_apply (x0 : (⟨S500000x256, .f32⟩ : BufTy).Contents (Elt Ideal)) (x1 : (⟨S64x256, .f32⟩ : BufTy).Contents (Elt Ideal))
    (x2 : (⟨S64, .f32⟩ : BufTy).Contents (Elt Ideal)) (x3 : (⟨S64x64, .f32⟩ : BufTy).Contents (Elt Ideal))
    (x4 : (⟨S64, .f32⟩ : BufTy).Contents (Elt Ideal)) (x7 : (⟨S_, .f32⟩ : BufTy).Contents (Elt Ideal))
    (i : Fin 500000) (k : Fin 64) :
    val_main_v56 (F := Ideal) x0 x1 x2 x3 x4 x7 (ix2 i k)
      = dot (fun j => val_main_v32 (F := Ideal) x0 x1 x2 x7 (ix2 i j))
          (fun j => wqAt (a := 64) (b := 64) reducesTo_S64x64_S_d0_1 h_S_ bcast_S_S_ x3 k j) + x4 (ix1 k) := by
  rw [val_main_v56_apply, val_main_v53_apply, val_main_v55_apply, val_main_v54_apply, Ideal.addf_def]
  have eb : idx_main_v54 (idx_main_v55 (ix2 i k)) = ix1 k :=
    funext fun a => by match a with | ⟨0, _⟩ => rfl
  rw [eb]
  unfold dot
  refine congrArg₂ (· + ·) (Finset.sum_congr rfl fun j _ => ?_) rfl
  have el : lidx_main_v53 (ix2 i k) j = ix2 i j :=
    funext fun a => by match a with | ⟨0, _⟩ => rfl | ⟨1, _⟩ => rfl
  have er : idx_main_v52 (ridx_main_v53 (ix2 i k) j) = ix2 k j :=
    funext fun a => by match a with | ⟨0, _⟩ => rfl | ⟨1, _⟩ => rfl
  rw [val_main_v52_apply, el, er, w2q_apply]

/-- The second activation at `(i, k)` is `deq a2` of the pre-activation there. -/
theorem act2_apply (x0 : (⟨S500000x256, .f32⟩ : BufTy).Contents (Elt Ideal)) (x1 : (⟨S64x256, .f32⟩ : BufTy).Contents (Elt Ideal))
    (x2 : (⟨S64, .f32⟩ : BufTy).Contents (Elt Ideal)) (x3 : (⟨S64x64, .f32⟩ : BufTy).Contents (Elt Ideal))
    (x4 : (⟨S64, .f32⟩ : BufTy).Contents (Elt Ideal)) (x7 x8 : (⟨S_, .f32⟩ : BufTy).Contents (Elt Ideal))
    (i : Fin 500000) (k : Fin 64) :
    val_main_v65 (F := Ideal) x0 x1 x2 x3 x4 x7 x8 (ix2 i k)
      = deq (x8 ix0) (val_main_v56 (F := Ideal) x0 x1 x2 x3 x4 x7 (ix2 i k)) := by
  simp only [val_main_v65_apply, val_main_v64_apply, val_main_v63_apply, val_main_v62_apply, val_main_v61_apply,
    val_main_call9_v4_apply, val_main_call9_v3_apply, val_main_cst_16_apply, val_main_call9_v2_apply,
    val_main_call9_v1_apply, val_main_call9_v0_apply, val_main_cst_15_apply, val_main_v60_apply, val_main_v59_apply,
    val_main_v58_apply, val_main_v57_apply, val_main_call7_v0_apply, val_main_call7_cst_apply,
    Ideal.addf_def, Ideal.subf_def, Ideal.mulf_def, Ideal.maximumf_def, Ideal.minimumf_def,
    Ideal.hostDivf_def, Ideal.hostUnary_roundeven_def, Ideal.ofBits_def]
  rfl

/-! ## The output layer -/

/-- The result at `(i, 0)`: row `i` of the second activations against the one row of `W3q`, plus `b3`. -/
theorem out_apply (x0 : (⟨S500000x256, .f32⟩ : BufTy).Contents (Elt Ideal)) (x1 : (⟨S64x256, .f32⟩ : BufTy).Contents (Elt Ideal))
    (x2 : (⟨S64, .f32⟩ : BufTy).Contents (Elt Ideal)) (x3 : (⟨S64x64, .f32⟩ : BufTy).Contents (Elt Ideal))
    (x4 : (⟨S64, .f32⟩ : BufTy).Contents (Elt Ideal)) (x5 : (⟨S1x64, .f32⟩ : BufTy).Contents (Elt Ideal))
    (x6 : (⟨S1, .f32⟩ : BufTy).Contents (Elt Ideal)) (x7 x8 : (⟨S_, .f32⟩ : BufTy).Contents (Elt Ideal)) (i : Fin 500000) :
    val_main_v89 (F := Ideal) x0 x1 x2 x3 x4 x5 x6 x7 x8 (ix2 i (0 : Fin 1))
      = dot (fun k => val_main_v65 (F := Ideal) x0 x1 x2 x3 x4 x7 x8 (ix2 i k))
          (fun k => wqAt (a := 1) (b := 64) reducesTo_S1x64_S_d0_1 h_S_ bcast_S_S_ x5 0 k) + x6 (ix1 (0 : Fin 1)) := by
  rw [val_main_v89_apply, val_main_v86_apply, val_main_v88_apply, val_main_v87_apply, Ideal.addf_def]
  have eb : idx_main_v87 (idx_main_v88 (ix2 i (0 : Fin 1))) = ix1 (0 : Fin 1) :=
    funext fun a => by match a with | ⟨0, _⟩ => rfl
  rw [eb]
  unfold dot
  refine congrArg₂ (· + ·) (Finset.sum_congr rfl fun k _ => ?_) rfl
  have el : lidx_main_v86 (ix2 i (0 : Fin 1)) k = ix2 i k :=
    funext fun a => by match a with | ⟨0, _⟩ => rfl | ⟨1, _⟩ => rfl
  have er : idx_main_v85 (ridx_main_v86 (ix2 i (0 : Fin 1)) k) = ix2 (0 : Fin 1) k :=
    funext fun a => by match a with | ⟨0, _⟩ => rfl | ⟨1, _⟩ => rfl
  rw [val_main_v85_apply, el, er, w3q_apply]

/-! ## The row -/

/-- Row `i` of the reference's result. -/
theorem ref_apply (x0 : (⟨S500000x256, .f32⟩ : BufTy).Contents (Elt Ideal)) (x1 : (⟨S64x256, .f32⟩ : BufTy).Contents (Elt Ideal))
    (x2 : (⟨S64, .f32⟩ : BufTy).Contents (Elt Ideal)) (x3 : (⟨S64x64, .f32⟩ : BufTy).Contents (Elt Ideal))
    (x4 : (⟨S64, .f32⟩ : BufTy).Contents (Elt Ideal)) (x5 : (⟨S1x64, .f32⟩ : BufTy).Contents (Elt Ideal))
    (x6 : (⟨S1, .f32⟩ : BufTy).Contents (Elt Ideal)) (x7 x8 : (⟨S_, .f32⟩ : BufTy).Contents (Elt Ideal)) (i : Fin 500000) :
    val_main_v89 (F := Ideal) x0 x1 x2 x3 x4 x5 x6 x7 x8 (ix2 i (0 : Fin 1))
      = refRow (fun d => x0 (ix2 i d))
          (fun j d => wqAt (a := 64) (b := 256) reducesTo_S64x256_S_d0_1 h_S_ bcast_S_S_ x1 j d)
          (fun j => x2 (ix1 j))
          (fun k j => wqAt (a := 64) (b := 64) reducesTo_S64x64_S_d0_1 h_S_ bcast_S_S_ x3 k j)
          (fun k => x4 (ix1 k))
          (fun k => wqAt (a := 1) (b := 64) reducesTo_S1x64_S_d0_1 h_S_ bcast_S_S_ x5 0 k)
          (x6 (ix1 (0 : Fin 1))) (x7 ix0) (x8 ix0) := by
  rw [out_apply]
  simp only [act2_apply, pre2_apply, act1_apply, pre1_apply]
  rfl

end Cert.ReferenceIdeal.RefValue

end
-- ==== Proof.lean ====
/-
  A three-layer perceptron with 8-bit quantised weights and activations, row by row over `x : [500000, 256]`:
  `h₁ = x · W₁qᵀ + b₁`, `h₂ = act₁ · W₂qᵀ + b₂`, `out = act₂ · W₃qᵀ + b₃`, where a weight tensor is quantised entry by entry at a
  per-tensor power-of-two scale and an activation is `relu`, divided by its step `a`, rounded to even and clipped to `[0, 255]`.

  The reference dequantises each activation, `act = relu h + (code · a - relu h)` (straight-through form), and multiplies by the
  plain quantised weights. The kernel keeps the integer code and multiplies by `a · Wq`, folded on the host; it runs 250 grid
  points of 2000 rows each and writes a [250, 1, 2000] array that a last host line re-lays as [500000, 1].

  At the extended reals the two agree when every input is a real number (the precondition): every pre-activation is then a real
  number, so `relu h + (q - relu h) = q` (false at `relu h = +∞`), and `(code · a) · w = code · (a · w)`. That a quantised weight is
  a real number needs nothing about the scale: at an infinite scale the quotient, its code and the product with the scale are `0`.
  The three frames are the generated ones (the reference's its generated run); the idealization rewrote nothing.
-/
import proofs.«407092_j9895604650610_3_alg».proof.Defs
import proofs.«407092_j9895604650610_3_alg».proof.Proof.Gen.Kernel
import proofs.«407092_j9895604650610_3_alg».proof.Proof.Gen.Kernel.Skeleton
import proofs.«407092_j9895604650610_3_alg».proof.Proof.Gen.Kernel.Launch
import proofs.«407092_j9895604650610_3_alg».proof.Proof.Gen.Kernel.Points
import proofs.«407092_j9895604650610_3_alg».proof.Proof.Gen.Kernel.Frame
import proofs.«407092_j9895604650610_3_alg».proof.Proof.Gen.KernelIdeal
import proofs.«407092_j9895604650610_3_alg».proof.Proof.Gen.KernelIdeal.Skeleton
import proofs.«407092_j9895604650610_3_alg».proof.Proof.Gen.KernelIdeal.Launch
import proofs.«407092_j9895604650610_3_alg».proof.Proof.Gen.KernelIdeal.Points
import proofs.«407092_j9895604650610_3_alg».proof.Proof.Gen.KernelIdeal.Frame
import proofs.«407092_j9895604650610_3_alg».proof.Proof.Gen.ReferenceIdeal
import proofs.«407092_j9895604650610_3_alg».proof.Proof.Gen.Pre_finite_inputs
import proofs.«407092_j9895604650610_3_alg».proof.Proof.Gen.ReferenceIdeal.Run
import proofs.«407092_j9895604650610_3_alg».proof.Proof.Gen.ReferenceIdeal.Read
import proofs.«407092_j9895604650610_3_alg».proof.Proof.Spec
import proofs.«407092_j9895604650610_3_alg».proof.Proof.Finite
import proofs.«407092_j9895604650610_3_alg».proof.Proof.KernelValue
import proofs.«407092_j9895604650610_3_alg».proof.Proof.RefValue
import Idealize.ShloMosaic.Adequacy
import Idealize.ShloMosaic.Init

noncomputable section

namespace Cert.Proof

open Idealize.ShloMosaic Idealize.SL.Sem Idealize.ShloMosaic.ValueIdx Cert.QMlp

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both programs end with the same [500000, 1] array: row `r` of the reference's is `refRow` of the arguments, which on real
    inputs is `kerRow` with the steps folded into the weights, which is what the kernel's run leaves at row `r`. -/
theorem algebraic : Cert.algebraic_KernelIdeal_ReferenceIdeal := by
  intro m ρ m' ρ' hpre hagree
  refine ⟨fun c => Cert.KernelIdeal.KValue.result m c, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8⟩ := hagree c
  obtain ⟨r0, r1, r2, r3, r4, r5, r6, r7, r8⟩ := Cert.Finite.real_of_pre _ _ _ _ _ _ _ _ _ (hpre c)
  rw [Cert.ReferenceIdeal.Read.val_main_v89_eq, a0, a1, a2, a3, a4, a5, a6, a7, a8]
  funext i
  have h1 : (i 1).val = 0 := by have h : (i 1).val < 1 := (i 1).isLt; omega
  obtain ⟨r, rfl⟩ : ∃ r : Fin 500000, i = ix2 r (0 : Fin 1) :=
    ⟨⟨(i 0).val, (i 0).isLt⟩, funext fun a => by
      match a with
      | ⟨0, _⟩ => rfl
      | ⟨1, _⟩ => exact Fin.ext h1⟩
  rw [Cert.ReferenceIdeal.RefValue.ref_apply]
  rw [refRow_eq_kerRow _ _ (fun d => r0 _) (fun j d => isReal_wqAt _ _ _ _ r1 j d) (fun j => r2 _)
    (fun k j => isReal_wqAt _ _ _ _ r3 k j) (fun k => r4 _) (r7 _) (r8 _)]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
